-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x64 : Shape := ⟨3, ![8, 8192, 64]⟩
abbrev S8x8192x16 : Shape := ⟨3, ![8, 8192, 16]⟩
abbrev S64x64 : Shape := ⟨2, ![64, 64]⟩
abbrev S64 : Shape := ⟨1, ![64]⟩
abbrev S_ : Shape := ⟨0, ![]⟩

class Facts : Prop where
  bcast_S_S8x8192x64 : S_.BroadcastsInDim S8x8192x64 (![] : Fin 0 → Fin S8x8192x64.rank)
  reducesTo_S8x8192x64_S_d0_1_2 : S8x8192x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x8192x16 : S_.BroadcastsInDim S8x8192x16 (![] : Fin 0 → Fin S8x8192x16.rank)
  reducesTo_S8x8192x16_S_d0_1_2 : S8x8192x16.ReducesTo [0, 1, 2] S_

variable [Facts]

def fn_part1 {F : FTy → Type} [FloatOps F] (main_arg1 : IVec S8x8192x16 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S8x8192x16 32 := broadcastInDim S8x8192x16 ![] bcast_S_S8x8192x16 main_c_6
  let main_v20 : IVec S8x8192x16 1 := cmpi .sge main_arg1 main_v19
  let main_c_7 : IVec S_ 32 := constantI S_ 32 8192#32
  let main_v21 : IVec S8x8192x16 32 := broadcastInDim S8x8192x16 ![] bcast_S_S8x8192x16 main_c_7
  let main_v22 : IVec S8x8192x16 1 := cmpi .slt main_arg1 main_v21
  let main_v23 : IVec S8x8192x16 1 := andi main_v20 main_v22
  let main_c_8 : IVec S_ 1 := constantI S_ 1 1#1
  let main_v24 : IVec S_ 1 := (fun x v => Host.reduce IntOp.andi x v reducesTo_S8x8192x16_S_d0_1_2 h_S_) main_v23 main_c_8
  let main_v25 : IVec S_ 1 := andi main_v18 main_v24
  main_v25

def fn {F : FTy → Type} [FloatOps F] (main_arg0 : FVec F S8x8192x64 .f32) (main_arg1 : IVec S8x8192x16 32) (main_arg2 : FVec F S64x64 .f32) (main_arg3 : FVec F S64 .f32) (main_arg4 : FVec F S64 .f32) : IVec S_ 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_c : IVec S_ 1 := constantI S_ 1 1#1
  let main_v3 : IVec S_ 1 := (fun x v => Host.reduce IntOp.andi x v reducesTo_S8x8192x64_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_v13 main_v16
-- ==== Kernel.lean ====
abbrev S8x8192x64 : Shape := ⟨3, ![8, 8192, 64]⟩
abbrev S8x8192x16 : Shape := ⟨3, ![8, 8192, 16]⟩
abbrev S64x64 : Shape := ⟨2, ![64, 64]⟩
abbrev S64 : Shape := ⟨1, ![64]⟩
abbrev S1x2048x64 : Shape := ⟨3, ![1, 2048, 64]⟩
abbrev S2048x64 : Shape := ⟨2, ![2048, 64]⟩
abbrev S1x1024x16 : Shape := ⟨3, ![1, 1024, 16]⟩
abbrev S1x8192x64 : Shape := ⟨3, ![1, 8192, 64]⟩
abbrev S1x1024x64 : Shape := ⟨3, ![1, 1024, 64]⟩
abbrev S1024x16 : Shape := ⟨2, ![1024, 16]⟩
abbrev S1024x64 : Shape := ⟨2, ![1024, 64]⟩
abbrev S1024x1024 : Shape := ⟨2, ![1024, 1024]⟩
abbrev S1024x1 : Shape := ⟨2, ![1024, 1]⟩
abbrev S65536x64 : Shape := ⟨2, ![65536, 64]⟩
abbrev S_ : Shape := ⟨0, ![]⟩
abbrev S1x64 : Shape := ⟨2, ![1, 64]⟩

abbrev nBuf : Space → Nat
  | .hbm => 53
  | .vmem => 11
  | .smem => 0
  | _ => 0

abbrev bufTy : (tb : Table) → Fin (tcTables nBuf tb) → BufTy
  | .hbm, ⟨0, _⟩ => ⟨S8x8192x64, .f32⟩
  | .hbm, ⟨1, _⟩ => ⟨S8x8192x16, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S8x8192x64, .bf16⟩
  | .hbm, ⟨6, _⟩ => ⟨S8x8192x64, .f32⟩
  | .hbm, ⟨7, _⟩ => ⟨S65536x64, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .i32⟩
  | .hbm, ⟨14, _⟩ => ⟨S_, .f32⟩
  | .hbm, ⟨15, _⟩ => ⟨S64, .f32⟩
  | .hbm, ⟨16, _⟩ => ⟨S1x64, .f32⟩
  | .hbm, ⟨17, _⟩ => ⟨S_, .f32⟩
  | .hbm, ⟨18, _⟩ => ⟨S1x64, .f32⟩
  | .hbm, ⟨19, _⟩ => ⟨S1x64, .f32⟩
  | .hbm, ⟨20, _⟩ => ⟨S65536x64, .f32⟩
  | .hbm, ⟨21, _⟩ => ⟨S65536x64, .f32⟩
  | .hbm, ⟨22, _⟩ => ⟨S65536x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S1x64, .f32⟩
  | .hbm, ⟨37, _⟩ => ⟨S65536x64, .f32⟩
  | .hbm, ⟨38, _⟩ => ⟨S65536x64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S65536x64, .f32⟩
  | .hbm, ⟨45, _⟩ => ⟨S65536x64, .f32⟩
  | .hbm, ⟨46, _⟩ => ⟨S1x64, .f32⟩
  | .hbm, ⟨47, _⟩ => ⟨S65536x64, .f32⟩
  | .hbm, ⟨48, _⟩ => ⟨S65536x64, .f32⟩
  | .hbm, ⟨49, _⟩ => ⟨S1x64, .f32⟩
  | .hbm, ⟨50, _⟩ => ⟨S65536x64, .f32⟩
  | .hbm, ⟨51, _⟩ => ⟨S65536x64, .f32⟩
  | .hbm, ⟨52, _⟩ => ⟨S8x8192x64, .f32⟩
  | .local _ .vmem, ⟨0, _⟩ => ⟨S1x2048x64, .f32⟩
  | .local _ .vmem, ⟨1, _⟩ => ⟨S1x2048x64, .f32⟩
  | .local _ .vmem, ⟨2, _⟩ => ⟨S64x64, .f32⟩
  | .local _ .vmem, ⟨3, _⟩ => ⟨S1x2048x64, .bf16⟩
  | .local _ .vmem, ⟨4, _⟩ => ⟨S1x2048x64, .bf16⟩
  | .local _ .vmem, ⟨5, _⟩ => ⟨S1x1024x16, .i32⟩
  | .local _ .vmem, ⟨6, _⟩ => ⟨S1x1024x16, .i32⟩
  | .local _ .vmem, ⟨7, _⟩ => ⟨S1x8192x64, .bf16⟩
  | .local _ .vmem, ⟨8, _⟩ => ⟨S1x8192x64, .bf16⟩
  | .local _ .vmem, ⟨9, _⟩ => ⟨S1x1024x64, .f32⟩
  | .local _ .vmem, ⟨10, _⟩ => ⟨S1x1024x64, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x16 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  iota_S1024x1024_d1_w32 : S1024x1024.Iotas .tc 32 [1]
  slices_S1024x16_o0_0_S1024x1 : S1024x16.Slices ![0, 0] S1024x1
  broadcasts_S1024x1_S1024x1024 : S1024x1.Broadcasts S1024x1024
  natLt_1_32 : 1 < 32
  slices_S1024x16_o0_1_S1024x1 : S1024x16.Slices ![0, 1] S1024x1
  slices_S1024x16_o0_2_S1024x1 : S1024x16.Slices ![0, 2] S1024x1
  slices_S1024x16_o0_3_S1024x1 : S1024x16.Slices ![0, 3] S1024x1
  slices_S1024x16_o0_4_S1024x1 : S1024x16.Slices ![0, 4] S1024x1
  slices_S1024x16_o0_5_S1024x1 : S1024x16.Slices ![0, 5] S1024x1
  slices_S1024x16_o0_6_S1024x1 : S1024x16.Slices ![0, 6] S1024x1
  slices_S1024x16_o0_7_S1024x1 : S1024x16.Slices ![0, 7] S1024x1
  slices_S1024x16_o0_8_S1024x1 : S1024x16.Slices ![0, 8] S1024x1
  slices_S1024x16_o0_9_S1024x1 : S1024x16.Slices ![0, 9] S1024x1
  slices_S1024x16_o0_10_S1024x1 : S1024x16.Slices ![0, 10] S1024x1
  slices_S1024x16_o0_11_S1024x1 : S1024x16.Slices ![0, 11] S1024x1
  slices_S1024x16_o0_12_S1024x1 : S1024x16.Slices ![0, 12] S1024x1
  slices_S1024x16_o0_13_S1024x1 : S1024x16.Slices ![0, 13] S1024x1
  slices_S1024x16_o0_14_S1024x1 : S1024x16.Slices ![0, 14] S1024x1
  slices_S1024x16_o0_15_S1024x1 : S1024x16.Slices ![0, 15] S1024x1
  inb_S1x8192x64_S1x1024x64_0_0_0 : ∀ a, (![0, 0, 0] : Fin 3 → Nat) a + S1x1024x64.size a ≤ S1x8192x64.size a
  h_S1x1024x64 : 0 < S1x1024x64.numel
  shapeCasts_S1x1024x64_S1024x64 : S1x1024x64.ShapeCasts S1024x64
  inb_S1x8192x64_S1x1024x64_0_1024_0 : ∀ a, (![0, 1024, 0] : Fin 3 → Nat) a + S1x1024x64.size a ≤ S1x8192x64.size a
  inb_S1x8192x64_S1x1024x64_0_2048_0 : ∀ a, (![0, 2048, 0] : Fin 3 → Nat) a + S1x1024x64.size a ≤ S1x8192x64.size a
  inb_S1x8192x64_S1x1024x64_0_3072_0 : ∀ a, (![0, 3072, 0] : Fin 3 → Nat) a + S1x1024x64.size a ≤ S1x8192x64.size a
  inb_S1x8192x64_S1x1024x64_0_4096_0 : ∀ a, (![0, 4096, 0] : Fin 3 → Nat) a + S1x1024x64.size a ≤ S1x8192x64.size a
  inb_S1x8192x64_S1x1024x64_0_5120_0 : ∀ a, (![0, 5120, 0] : Fin 3 → Nat) a + S1x1024x64.size a ≤ S1x8192x64.size a
  inb_S1x8192x64_S1x1024x64_0_6144_0 : ∀ a, (![0, 6144, 0] : Fin 3 → Nat) a + S1x1024x64.size a ≤ S1x8192x64.size a
  inb_S1x8192x64_S1x1024x64_0_7168_0 : ∀ a, (![0, 7168, 0] : Fin 3 → Nat) a + S1x1024x64.size a ≤ S1x8192x64.size a
  inb_S1x1024x64_S1x1024x64_0_0_0 : ∀ a, (![0, 0, 0] : Fin 3 → Nat) a + S1x1024x64.size a ≤ S1x1024x64.size a
  shapeCasts_S1024x64_S1x1024x64 : S1024x64.ShapeCasts S1x1024x64
  shapeCasts_S8x8192x64_S65536x64 : S8x8192x64.ShapeCasts S65536x64
  reducesTo_S65536x64_S64_d0 : S65536x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S65536x64_0_1 : S1x64.BroadcastsInDim S65536x64 (![0, 1] : Fin 2 → Fin S65536x64.rank)
  shapeCasts_S65536x64_S8x8192x64 : S65536x64.ShapeCasts S8x8192x64
  dot_S2048x64_S64x64_S2048x64_1_0_0_1_n_n_wf : DotDims.WF S2048x64 S64x64 S2048x64 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S8x8192x64.size a
  hwx0_0 : ∀ i : grid0.Coords, EltTy.bits .f32 = 32 ∨ (Rect.block (s := S8x8192x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x8192x64.size a
  hwx0_2 : ∀ i : grid0.Coords, EltTy.bits .bf16 = 32 ∨ (Rect.block (s := S8x8192x64) S1x2048x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x16.size a ≤ S8x8192x16.size a
  hwx1_0 : ∀ i : grid1.Coords, EltTy.bits .i32 = 32 ∨ (Rect.block (s := S8x8192x16) S1x1024x16.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x64.size a ≤ S8x8192x64.size a
  hwx1_1 : ∀ i : grid1.Coords, EltTy.bits .bf16 = 32 ∨ (Rect.block (s := S8x8192x64) S1x8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S8x8192x64.size a
  hwx1_2 : ∀ i : grid1.Coords, EltTy.bits .f32 = 32 ∨ (Rect.block (s := S8x8192x64) S1x1024x64.size (cc1_transform_2 i) (hinb1_2 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1024x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x8192x64 : Shape := ⟨3, ![8, 8192, 64]⟩
abbrev S8x8192x16 : Shape := ⟨3, ![8, 8192, 16]⟩
abbrev S64x64 : Shape := ⟨2, ![64, 64]⟩
abbrev S64 : Shape := ⟨1, ![64]⟩
abbrev S_ : Shape := ⟨0, ![]⟩
abbrev S8x8192x16x1 : Shape := ⟨4, ![8, 8192, 16, 1]⟩
abbrev S8x8192x16x64 : Shape := ⟨4, ![8, 8192, 16, 64]⟩
abbrev S65536x64 : Shape := ⟨2, ![65536, 64]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S8x8192x16, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S8x8192x64, .f32⟩
  | .hbm, ⟨6, _⟩ => ⟨S_, .i32⟩
  | .hbm, ⟨7, _⟩ => ⟨S8x8192x16, .i32⟩
  | .hbm, ⟨8, _⟩ => ⟨S8x8192x16, .i1⟩
  | .hbm, ⟨9, _⟩ => ⟨S_, .i32⟩
  | .hbm, ⟨10, _⟩ => ⟨S8x8192x16, .i32⟩
  | .hbm, ⟨11, _⟩ => ⟨S8x8192x16, .i32⟩
  | .hbm, ⟨12, _⟩ => ⟨S8x8192x16, .i32⟩
  | .hbm, ⟨13, _⟩ => ⟨S8x8192x16x1, .i32⟩
  | .hbm, ⟨14, _⟩ => ⟨S8x8192x16x64, .f32⟩
  | .hbm, ⟨15, _⟩ => ⟨S_, .f32⟩
  | .hbm, ⟨16, _⟩ => ⟨S8x8192x64, .f32⟩
  | .hbm, ⟨17, _⟩ => ⟨S_, .f32⟩
  | .hbm, ⟨18, _⟩ => ⟨S8x8192x64, .f32⟩
  | .hbm, ⟨19, _⟩ => ⟨S8x8192x64, .f32⟩
  | .hbm, ⟨20, _⟩ => ⟨S65536x64, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .i32⟩
  | .hbm, ⟨27, _⟩ => ⟨S_, .f32⟩
  | .hbm, ⟨28, _⟩ => ⟨S64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S65536x64, .f32⟩
  | .hbm, ⟨34, _⟩ => ⟨S65536x64, .f32⟩
  | .hbm, ⟨35, _⟩ => ⟨S65536x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S1x64, .f32⟩
  | .hbm, ⟨50, _⟩ => ⟨S65536x64, .f32⟩
  | .hbm, ⟨51, _⟩ => ⟨S65536x64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S65536x64, .f32⟩
  | .hbm, ⟨58, _⟩ => ⟨S65536x64, .f32⟩
  | .hbm, ⟨59, _⟩ => ⟨S1x64, .f32⟩
  | .hbm, ⟨60, _⟩ => ⟨S65536x64, .f32⟩
  | .hbm, ⟨61, _⟩ => ⟨S65536x64, .f32⟩
  | .hbm, ⟨62, _⟩ => ⟨S1x64, .f32⟩
  | .hbm, ⟨63, _⟩ => ⟨S65536x64, .f32⟩
  | .hbm, ⟨64, _⟩ => ⟨S65536x64, .f32⟩
  | .hbm, ⟨65, _⟩ => ⟨S8x8192x64, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_5 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩

abbrev nD : Nat := 1
abbrev τ : Topo := Topo.v7x

variable {F : FTy → Type} [FloatOps F]

class Facts₀ : Prop where
  bcast_S_S8x8192x16 : S_.BroadcastsInDim S8x8192x16 (![] : Fin 0 → Fin S8x8192x16.rank)
  bcast_S8x8192x16_S8x8192x16x1_0_1_2 : S8x8192x16.BroadcastsInDim S8x8192x16x1 (![0, 1, 2] : Fin 3 → Fin S8x8192x16x1.rank)
  reducesTo_S8x8192x16x64_S8x8192x64_d2 : S8x8192x16x64.ReducesTo [2] S8x8192x64
  h_S_ : 0 < S_.numel
  bcast_S_S8x8192x64 : S_.BroadcastsInDim S8x8192x64 (![] : Fin 0 → Fin S8x8192x64.rank)
  shapeCasts_S8x8192x64_S65536x64 : S8x8192x64.ShapeCasts S65536x64
  reducesTo_S65536x64_S64_d0 : S65536x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S65536x64_0_1 : S1x64.BroadcastsInDim S65536x64 (![0, 1] : Fin 2 → Fin S65536x64.rank)
  shapeCasts_S65536x64_S8x8192x64 : S65536x64.ShapeCasts S8x8192x64
  dot_S8x8192x64_S64x64_S8x8192x64_2_1_01_0_n_n_wf : DotDims.WF S8x8192x64 S64x64 S8x8192x64 [2] [1] [0, 1] [0] [] []
  gather_S8x8192x64_S8x8192x16x1_S8x8192x16x64_3_1_0_0_1_3_1164_wf : GatherDims.WF S8x8192x64 S8x8192x16x1 S8x8192x16x64 [3] [1] [0] [1] [0] 3 ![1, 1, 64]

variable [Facts₀]

def dot_S8x8192x64_S64x64_S8x8192x64_2_1_01_0_n_n : DotDims S8x8192x64 S64x64 S8x8192x64 where
  lhsContracting := [2]
  rhsContracting := [1]
  lhsNonContracting := [0, 1]
  rhsNonContracting := [0]
  lhsBatch := []
  rhsBatch := []
  wf := dot_S8x8192x64_S64x64_S8x8192x64_2_1_01_0_n_n_wf
def gather_S8x8192x64_S8x8192x16x1_S8x8192x16x64_3_1_0_0_1_3_1164 : GatherDims S8x8192x64 S8x8192x16x1 S8x8192x16x64 where
  offsetDims := [3]
  collapsedSliceDims := [1]
  operandBatchingDims := [0]
  startIndicesBatchingDims := [0]
  startIndexMap := [1]
  indexVectorDim := 3
  sliceSizes := ![1, 1, 64]
  wf := gather_S8x8192x64_S8x8192x16x1_S8x8192x16x64_3_1_0_0_1_3_1164_wf

class Facts : Prop extends Facts₀ where

variable [Facts]
-- ==== Proof.Tail.lean ====
/-
  The normalisation both programs apply to the neighbour mean `a` (an [8, 8192, 64] array): read as 65536 rows of 64
  columns, each column is centred by its mean over the rows, scaled by the reciprocal square root of its (biased)
  variance plus ε, multiplied by `g` and shifted by `bt`, column by column, and the rows are laid back out as [8, 8192, 64].
  It is ONE function of (a, g, bt); the certificate never opens it: both programs apply it to arrays proved equal.
-/
import Idealize.ShloMosaic.PureOps.Ideal

noncomputable section

namespace Cert.Tail

open Idealize.ShloMosaic

abbrev S8x8192x64 : Shape := ⟨3, ![8, 8192, 64]⟩
abbrev S65536x64 : Shape := ⟨2, ![65536, 64]⟩
abbrev S64 : Shape := ⟨1, ![64]⟩
abbrev S1x64 : Shape := ⟨2, ![1, 64]⟩
abbrev S_ : Shape := ⟨0, ![]⟩

theorem rows : S8x8192x64.ShapeCasts S65536x64 := by decide
theorem unrows : S65536x64.ShapeCasts S8x8192x64 := by decide
theorem overRows : S65536x64.ReducesTo [0] S64 := by decide
theorem scalarPos : 0 < S_.numel := by decide
theorem toCols : S_.BroadcastsInDim S64 (![] : Fin 0 → Fin S64.rank) := by decide
theorem toRow : S64.BroadcastsInDim S1x64 (![1] : Fin 1 → Fin S1x64.rank) := by decide
theorem scalarToRow : S_.BroadcastsInDim S1x64 (![] : Fin 0 → Fin S1x64.rank) := by decide
theorem rowToAll : S1x64.BroadcastsInDim S65536x64 (![0, 1] : Fin 2 → Fin S65536x64.rank) := by decide

/-- A per-column vector spread over all 65536 rows. -/
def spread (v : FVec Ideal S64 .f32) : FVec Ideal S65536x64 .f32 :=
  broadcastInDim S65536x64 ![0, 1] rowToAll (broadcastInDim S1x64 ![1] toRow v)

/-- The normalisation, operation by operation as both programs spell it. -/
def tail (a : FVec Ideal S8x8192x64 .f32) (g bt : FVec Ideal S64 .f32) : FVec Ideal S8x8192x64 .f32 :=
  let f : FVec Ideal S65536x64 .f32 := shapeCast S65536x64 a rows
  let zero : FVec Ideal S_ .f32 := constant S_ .f32 0x00000000#32
  let cnt : FVec Ideal S_ .f32 := constant S_ .f32 0x47800000#32
  let mean : FVec Ideal S64 .f32 := Host.divf (Host.reduceAdd f zero overRows scalarPos) (broadcastInDim S64 ![] toCols cnt)
  let meanRow : FVec Ideal S1x64 .f32 :=
    Host.divf (broadcastInDim S1x64 ![1] toRow (Host.reduceAdd f zero overRows scalarPos)) (broadcastInDim S1x64 ![] scalarToRow cnt)
  let dev : FVec Ideal S65536x64 .f32 := subf f (broadcastInDim S65536x64 ![0, 1] rowToAll meanRow)
  let dof : FVec Ideal S_ .f32 := subf cnt (sitofp .f32 (constantI S_ 32 0#32))
  let var : FVec Ideal S64 .f32 :=
    select (broadcastInDim S64 ![] toCols (cmpf .ogt dof zero))
      (Host.divf (Host.reduceAdd (mulf dev dev) zero overRows scalarPos) (broadcastInDim S64 ![] toCols dof))
      (broadcastInDim S64 ![] toCols (constant S_ .f32 0x7FC00000#32))
  let inv : FVec Ideal S64 .f32 := Host.rsqrt (addf var (broadcastInDim S64 ![] toCols (constant S_ .f32 0x3727C5AC#32)))
  shapeCast S8x8192x64 (addf (mulf (mulf (subf f (spread mean)) (spread inv)) (spread g)) (spread bt)) unrows

end Cert.Tail

end
-- ==== Proof.KTail.lean ====
/-
  The kernel program's host operations after its two pallas_calls, read back: from any contents `X` at the second call's exit,
  the result buffer ends at the normalisation (`Cert.Tail.tail`) of the second call's output array, of gamma and of beta.
-/
import proofs.«428082_j83803401880152_3_alg».proof.Proof.Gen.KernelIdeal.Frame
import proofs.«428082_j83803401880152_3_alg».proof.Proof.Tail
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

attribute [local irreducible] Host.reduceAdd Host.divf Host.rsqrt in
set_option maxRecDepth 16384 in
set_option maxHeartbeats 4000000 in
/-- The forty-six operations folded over `X`, read at the result buffer: each operation's result is its function of its
    operands' contents, and the composed term is the normalisation, operation for operation. -/
theorem ktail_eq (X : Valuation τ sig (Elt Ideal)) :
    StableHlo.after hostOps2_2 (StableHlo.after hostOps2_1 (StableHlo.after hostOps2 X)) (Proc.devRef .tc main_v22)
      = Cert.Tail.tail (X (Proc.devRef .tc main_v1)) (X (Proc.devRef .tc main_arg3)) (X (Proc.devRef .tc main_arg4)) := by
  after_results_simp
  rfl

end Cert.KernelIdeal.Hand

end
-- ==== Proof.Spec.lean ====
/-
  The mathematics both programs compute, as functions of the argument arrays, index by index, over the extended reals.

  * `proj x w`      : the linear projection, h[b, n, o] = Σ_c x[b, n, c] · w[o, c].
  * `agg knn h`     : the neighbour mean, a[b, n, o] = (Σ_k h[b, knn[b, n, k], o]) · (1/16); the neighbour index is read
                       modulo 8192, which is the index itself on the domain 0 ≤ knn < 8192 the certificate is stated on.
  Indices are built from explicit coordinates (`ix3 b n o`), so that every lemma over them is stated at literal extents.
-/
import Idealize.ShloMosaic.PureOps.Ideal
import Idealize.ShloMosaic.Lib.ValueIdx

noncomputable section

open scoped BigOperators

namespace Cert.Spec

open Idealize.ShloMosaic Idealize.ShloMosaic.ValueIdx

abbrev S8x8192x64 : Shape := ⟨3, ![8, 8192, 64]⟩
abbrev S8x8192x16 : Shape := ⟨3, ![8, 8192, 16]⟩
abbrev S64x64 : Shape := ⟨2, ![64, 64]⟩

/-- The three coordinates of an index of an [8, 8192, C] array, at their literal extents. -/
abbrev c0 {C : Nat} (i : (⟨3, ![8, 8192, C]⟩ : Shape).Idx) : Fin 8 := ⟨(i 0).val, (i 0).isLt⟩
abbrev c1 {C : Nat} (i : (⟨3, ![8, 8192, C]⟩ : Shape).Idx) : Fin 8192 := ⟨(i 1).val, (i 1).isLt⟩
abbrev c2 {C : Nat} (i : (⟨3, ![8, 8192, C]⟩ : Shape).Idx) : Fin C := ⟨(i 2).val, (i 2).isLt⟩

/-- One entry of the projection: row (b, n) of `x` against row `o` of `w`. -/
def projAt (x : S8x8192x64.Idx → EReal) (w : S64x64.Idx → EReal) (b : Fin 8) (n : Fin 8192) (o : Fin 64) : EReal :=
  ∑ k : Fin 64, x (ix3 b n k) * w (ix2 o k)

/-- The projection h = x · wᵀ as a whole array. -/
def proj (x : S8x8192x64.Idx → EReal) (w : S64x64.Idx → EReal) : S8x8192x64.Idx → EReal :=
  fun i => projAt x w (c0 i) (c1 i) (c2 i)

theorem proj_ix3 (x : S8x8192x64.Idx → EReal) (w : S64x64.Idx → EReal) (b : Fin 8) (n : Fin 8192) (o : Fin 64) :
    proj x w (ix3 b n o) = projAt x w b n o := rfl

/-- The row of `h` that neighbour `k` of token (b, n) names. -/
def nbr (knn : S8x8192x16.Idx → BitVec 32) (b : Fin 8) (n : Fin 8192) (k : Fin 16) : Fin 8192 :=
  ⟨(knn (ix3 b n k)).toNat % 8192, Nat.mod_lt _ (by decide)⟩

/-- One entry of the neighbour mean: the sixteen named rows of `h` at column `o`, added, times 1/16. -/
def aggAt (knn : S8x8192x16.Idx → BitVec 32) (h : S8x8192x64.Idx → EReal) (b : Fin 8) (n : Fin 8192) (o : Fin 64) : EReal :=
  (∑ k : Fin 16, h (ix3 b (nbr knn b n k) o)) * (((1 / 16 : ℝ)) : EReal)

/-- The neighbour mean as a whole array. -/
def agg (knn : S8x8192x16.Idx → BitVec 32) (h : S8x8192x64.Idx → EReal) : S8x8192x64.Idx → EReal :=
  fun i => aggAt knn h (c0 i) (c1 i) (c2 i)

theorem agg_ix3 (knn : S8x8192x16.Idx → BitVec 32) (h : S8x8192x64.Idx → EReal) (b : Fin 8) (n : Fin 8192) (o : Fin 64) :
    agg knn h (ix3 b n o) = aggAt knn h b n o := rfl

end Cert.Spec

end
-- ==== Proof.Reg0Value.lean ====
/-
  The first pallas_call, read as a value: whatever the region finds in its arrays (`V`), it leaves in its output array the
  projection of the two it reads — block (b, i) of the output is rows 2048·i … of batch b of x against every row of w, and
  the 32 blocks tile the array.
-/
import proofs.«428082_j83803401880152_3_alg».proof.Proof.Gen.KernelIdeal.Frame
import proofs.«428082_j83803401880152_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## The block product at an index

The body multiplies a [2048, 64] block of x by the transpose of the [64, 64] array w, contracting the 64 channels: the left
operand is read at (row, channel), the right one — w transposed — at (channel, column). -/

/-- The left operand's row is the result's row … -/
theorem lhs_row (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl
/-- … and its column the contracted channel. -/
theorem lhs_chan (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
/-- The right operand's row is the contracted channel … -/
theorem rhs_chan (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
/-- … and its column the result's column. -/
theorem rhs_col (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- A [1, 2048, 64] block viewed [2048, 64] reads (r, k) at (0, r, k). -/
theorem dropLead (x : Vec Ideal S1x2048x64 .f32) (r : Fin 2048) (k : Fin 64) :
    shapeCast S2048x64 x shapeCasts_S1x2048x64_S2048x64 (ix2 r k) = x (ix3 (0 : Fin 1) r k) :=
  shapeCast_apply x shapeCasts_S1x2048x64_S2048x64 (ix2 r k) (ix3 (0 : Fin 1) r k) (by
    rw [Shape.rowMajor_val_three, Shape.rowMajor_val_two]
    show ((0 : Nat) * 2048 + r.val) * 64 + k.val = r.val * 64 + k.val
    omega)

/-- A [2048, 64] result stored as a [1, 2048, 64] block reads (a, r, o) at (r, o). -/
theorem addLead (y : FVec Ideal S2048x64 .bf16) (a : Fin 1) (r : Fin 2048) (o : Fin 64) :
    shapeCast S1x2048x64 y shapeCasts_S2048x64_S1x2048x64 (ix3 a r o) = y (ix2 r o) :=
  shapeCast_apply y shapeCasts_S2048x64_S1x2048x64 (ix3 a r o) (ix2 r o) (by
    rw [Shape.rowMajor_val_three, Shape.rowMajor_val_two]
    show r.val * 64 + o.val = (a.val * 2048 + r.val) * 64 + o.val
    have ha : a.val < 1 := a.isLt
    omega)

/-- The transposed w reads (k, o) at (o, k). -/
theorem swapW (w : FVec Ideal S64x64 .bf16) (k o : Fin 64) :
    transpose S64x64 [1, 0] w transposes_S64x64_p1_0_S64x64 (ix2 k o) = w (ix2 o k) :=
  transpose_apply [1, 0] w transposes_S64x64_p1_0_S64x64 (ix2 k o) (ix2 o k) (fun b => by
    match b with
    | ⟨0, _⟩ => rfl
    | ⟨1, _⟩ => rfl)

/-- THE PAYLOAD AT AN INDEX: entry (a, r, o) of what the body stores is row r of its block of x against row o of w. Rounding
    to bf16 and back is the identity on the extended reals, and the accumulator is the zero splat. -/
theorem pay_apply (x : Vec Ideal S1x2048x64 .f32) (w : Vec Ideal S64x64 .f32) (a : Fin 1) (r : Fin 2048) (o : Fin 64) :
    k0_pay1 x w (ix3 a r o) = ∑ k : Fin 64, x (ix3 (0 : Fin 1) r k) * w (ix2 o k) := by
  unfold k0_pay1
  refine (addLead _ a r o).trans ?_
  rw [truncf_apply]
  simp only [matmul]
  rw [Ideal.matmul_constant_zero_apply,
    ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r o)
      ((contrEquiv1 dot_S2048x64_S64x64_S2048x64_1_0_0_1_n_n 64 rfl rfl).symm k) = ix2 r k := funext fun b => Fin.ext (by
    match b with
    | ⟨0, _⟩ => exact lhs_row _ _
    | ⟨1, _⟩ => exact (lhs_chan _ _).trans hk)
  have er : dot_S2048x64_S64x64_S2048x64_1_0_0_1_n_n.rhsIdx (ix2 r o)
      ((contrEquiv1 dot_S2048x64_S64x64_S2048x64_1_0_0_1_n_n 64 rfl rfl).symm k) = ix2 k o := funext fun b => Fin.ext (by
    match b with
    | ⟨0, _⟩ => exact (rhs_chan _ _).trans hk
    | ⟨1, _⟩ => exact rhs_col _ _)
  rw [el, er, truncf_apply, dropLead, swapW, truncf_apply]

/-! ## From blocks to the array

Grid point t = (b, i) reads block (b, i, 0) of x — one batch, rows 2048·i … 2048·i + 2047, every channel —, the whole of w, and
writes block (b, i, 0) of the output. -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the 32 grid points: the block of x moves with the output's block, w's block is the whole of w, and
    the output's block indices stay in their ranges. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0
    ∧ win0_1.index t (1 : Fin 2) = 0
    ∧ win0_2.index t (0 : Fin 3) ≤ 7
    ∧ win0_2.index t (1 : Fin 3) ≤ 3
    ∧ win0_2.index t (2 : Fin 3) = 0 :=
  (by decide +kernel : ∀ t : Fin grid0.N, _)

/-- Every block (b, i, 0) of the output is some grid point's. -/
theorem block_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

variable (V : (c : Dev nD) → (b : Ref sig .tc) → Buf (Elt Ideal) ((c : Thread nD τ).loc b))

/-- The block of x at point t, read at y, is x at the block's offset plus y on each axis. -/
theorem read_x (c : Dev nD) (t : Fin cfg0.N) (y : S1x2048x64.Idx) (i : S8x8192x64.Idx)
    (h0 : (i 0).val = win0_0.index t (0 : Fin 3) * 1 + (y 0).val)
    (h1 : (i 1).val = win0_0.index t (1 : Fin 3) * 2048 + (y 1).val)
    (h2 : (i 2).val = win0_0.index t (2 : Fin 3) * 64 + (y 2).val) :
    (iblk0 V c 0 t : Vec Ideal S1x2048x64 .f32) y = (V c main_arg0 : S8x8192x64.Idx → EReal) i := by
  unfold iblk0
  rw [View.read_apply]
  show V c main_arg0 _ = V c main_arg0 _
  refine congrArg _ (funext fun a => Fin.ext ?_)
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 64 + 1 * (y 2).val = (i 2).val; omega

/-- The block of w at point t, read at y, is w at the block's offset plus y on each axis. -/
theorem read_w (c : Dev nD) (t : Fin cfg0.N) (y : S64x64.Idx) (i : S64x64.Idx)
    (h0 : (i 0).val = win0_1.index t (0 : Fin 2) * 64 + (y 0).val)
    (h1 : (i 1).val = win0_1.index t (1 : Fin 2) * 64 + (y 1).val) :
    (iblk0 V c 1 t : Vec Ideal S64x64 .f32) y = (V c main_arg2 : S64x64.Idx → EReal) i := by
  unfold iblk0
  rw [View.read_apply]
  show V c main_arg2 _ = V c main_arg2 _
  refine congrArg _ (funext fun a => Fin.ext ?_)
  match a with
  | ⟨0, _⟩ => show win0_1.index t (0 : Fin 2) * 64 + 1 * (y 0).val = (i 0).val; omega
  | ⟨1, _⟩ => show win0_1.index t (1 : Fin 2) * 64 + 1 * (y 1).val = (i 1).val; omega

/-- WHAT POINT t WRITES BACK is block t of the projection of the two arrays the region reads. -/
theorem flushed_eq (c : Dev nD) (t : Fin cfg0.N) :
    (dat0 V c).flushed 2 t
      = ((cfg0.win 2).blk t).view.read (Elt Ideal) (Cert.Spec.proj (V c main_arg0) (V c main_arg2)) := by
  show (cfg0.win 2).cut (grid0.coords t) ((dat0 V c).after 2 t) = _
  rw [after0_2]
  unfold out0_2
  rw [View.canon_unit_zero zeros3]
  simp only [View.ld_unit_zero (S := S1x2048x64) zeros3, View.ld_unit_zero (S := S64x64) zeros2]
  obtain ⟨e0, e1, e2, e3, e4, e5, e6, e7⟩ := block_indices t
  funext j
  obtain ⟨a, r, o, rfl⟩ : ∃ (a : Fin 1) (r : Fin 2048) (o : Fin 64), j = ix3 a r o := ⟨j 0, j 1, j 2, eq_ix3 j⟩
  show k0_pay1 (iblk0 V c 0 t) (iblk0 V c 1 t) (ix3 a r o)
    = Cert.Spec.proj (V c main_arg0) (V c main_arg2) (((cfg0.win 2).blk t).view.emb (ix3 a r o))
  rw [pay_apply]
  unfold Cert.Spec.proj Cert.Spec.projAt
  refine Finset.sum_congr rfl fun k _ => ?_
  have ha : a.val < 1 := a.isLt
  refine congrArg₂ (· * ·) (read_x V c t _ _ ?_ ?_ ?_) (read_w V c t _ _ ?_ ?_)
  · show win0_2.index t (0 : Fin 3) * 1 + 1 * a.val = win0_0.index t (0 : Fin 3) * 1 + 0; omega
  · show win0_2.index t (1 : Fin 3) * 2048 + 1 * r.val = win0_0.index t (1 : Fin 3) * 2048 + r.val; omega
  · show k.val = win0_0.index t (2 : Fin 3) * 64 + k.val; omega
  · show win0_2.index t (2 : Fin 3) * 64 + 1 * o.val = win0_1.index t (0 : Fin 2) * 64 + o.val; omega
  · show k.val = win0_1.index t (1 : Fin 2) * 64 + k.val; omega

/-- An index of the output is in point t's block iff each coordinate is in the block's range on its axis. -/
theorem mem_block (t : Fin cfg0.N) (i : S8x8192x64.Idx) :
    i ∈ ((cfg0.win 2).blk t).view.set ↔ ∀ a : Fin 3, win0_2.index t a * S1x2048x64.size a ≤ (i a).val
      ∧ (i a).val < win0_2.index t a * S1x2048x64.size a + S1x2048x64.size a := by
  show i ∈ ((View.whole main_v0).slice (win0_2.rect t)).set ↔ _
  rw [View.set_slice_whole, Rect.mem_set_unit]
  exact Iff.rfl

/-- THE COVER: row (b, n) of the output is in the block of the grid point (b, n / 2048). -/
theorem covered (i : S8x8192x64.Idx) :
    ∃ t : Fin cfg0.N, (cfg0.win 2).flush t = true ∧ i ∈ ((cfg0.win 2).blk t).view.set := by
  have hi0 : (i 0).val < 8 := (i 0).isLt
  have hi1 : (i 1).val < 8192 := (i 1).isLt
  have hi2 : (i 2).val < 64 := (i 2).isLt
  obtain ⟨t, ht⟩ := block_onto ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 64 ≤ (i 2).val ∧ (i 2).val < win0_2.index t (2 : Fin 3) * 64 + 64; omega

/-- THE ARRAY after the region: the projection of x and w, the blocks tiling it. -/
theorem region0_final (c : Dev nD) :
    (dat0 (F := Ideal) V c).arrAt 2 cfg0.N = Cert.Spec.proj (V c main_arg0) (V c main_arg2) :=
  (dat0 V c).arrAt_eq_of_cover 2 (Cert.Spec.proj (V c main_arg0) (V c main_arg2)) (fun t _ => flushed_eq V c t) covered

end Cert.KernelIdeal.Hand

end
-- ==== Proof.Reg1Shape.lean ====
/-
  The body of the second pallas_call, regrouped. What it stores is (Σ over the eight key chunks of counts_c · h_c) · 1/16,
  where for a chunk whose keys start at `base` the count matrix is the sum over the sixteen neighbour columns of the
  0/1 matrix "neighbour column = key", and h_c is the chunk's 1024 rows of the table. The printed body spells every one of the
  8 × 16 comparisons out; here the same term is written with one name per comparison (`hit`), per count matrix (`counts`)
  and per chunk product (`part`), and the two spellings are one term by unfolding.
-/
import proofs.«428082_j83803401880152_3_alg».proof.Proof.Gen.KernelIdeal.Frame

noncomputable section

namespace Cert.KernelIdeal.Hand

open Cert.KernelIdeal Cert.KernelIdeal.Gen Idealize.ShloMosaic Idealize.ShloMosaic.TcCoe Idealize.SL.Sem

variable {F : FTy → Type} [FloatOps F]

/-- One neighbour column (the slice of the tile's [1024, 16] index block at column offset `off`) against the keys: 1.0 where
    the token's neighbour is the key, 0.0 elsewhere. -/
def hit (v1 : IVec S1024x16 32) (keys : IVec S1024x1024 32) (off : Fin 2 → Nat) (h : S1024x16.Slices off S1024x1) :
    FVec F S1024x1024 .f32 :=
  sitofp .f32 (extui 32 (cmpi .eq (broadcastTo S1024x1024 (extractStridedSlice S1024x1 off v1 h) broadcasts_S1024x1_S1024x1024) keys) natLt_1_32)

/-- The count matrix of a tile against a block of keys: the sixteen columns' hits added, from zero, in order. -/
def counts (v1 : IVec S1024x16 32) (keys : IVec S1024x1024 32) : FVec F S1024x1024 .f32 :=
  (addf (addf (addf (addf (addf (addf (addf (addf (addf (addf (addf (addf (addf (addf (addf (addf
    (broadcast S1024x1024 (Scalar.ofBits .f32 0x00000000#32))
    (hit v1 keys ![0, 0] slices_S1024x16_o0_0_S1024x1))
    (hit v1 keys ![0, 1] slices_S1024x16_o0_1_S1024x1))
    (hit v1 keys ![0, 2] slices_S1024x16_o0_2_S1024x1))
    (hit v1 keys ![0, 3] slices_S1024x16_o0_3_S1024x1))
    (hit v1 keys ![0, 4] slices_S1024x16_o0_4_S1024x1))
    (hit v1 keys ![0, 5] slices_S1024x16_o0_5_S1024x1))
    (hit v1 keys ![0, 6] slices_S1024x16_o0_6_S1024x1))
    (hit v1 keys ![0, 7] slices_S1024x16_o0_7_S1024x1))
    (hit v1 keys ![0, 8] slices_S1024x16_o0_8_S1024x1))
    (hit v1 keys ![0, 9] slices_S1024x16_o0_9_S1024x1))
    (hit v1 keys ![0, 10] slices_S1024x16_o0_10_S1024x1))
    (hit v1 keys ![0, 11] slices_S1024x16_o0_11_S1024x1))
    (hit v1 keys ![0, 12] slices_S1024x16_o0_12_S1024x1))
    (hit v1 keys ![0, 13] slices_S1024x16_o0_13_S1024x1))
    (hit v1 keys ![0, 14] slices_S1024x16_o0_14_S1024x1))
    (hit v1 keys ![0, 15] slices_S1024x16_o0_15_S1024x1))

/-- The keys of the chunk that starts at `base`: key j of every row is base + j. -/
def keysOf (base : BitVec 32) : IVec S1024x1024 32 :=
  addi (broadcast S1024x1024 base) (iota .tc S1024x1024 32 [1] iota_S1024x1024_d1_w32)

/-- One chunk's product: its count matrix against its 1024 rows of the table. -/
def part (v1 : IVec S1024x16 32) (base : BitVec 32) (hc : Vec F S1x1024x64 .bf16) : FVec F S1024x64 .f32 :=
  matmul dot_S1024x1024_S1024x64_S1024x64_1_0_0_1_n_n none (truncf .bf16 (counts (F := F) v1 (keysOf base)) bitsLt_bf16_f32)
    (shapeCast S1024x64 hc shapeCasts_S1x1024x64_S1024x64) (constant S1024x64 .f32 0x00000000#32)

/-- The tile's neighbour indices as a [1024, 16] block. -/
def tileIdx (x0 : Vec F S1x1024x16 .i32) : IVec S1024x16 32 :=
  shapeCast S1024x16 (View.ld x0 r1_0) shapeCasts_S1x1024x16_S1024x16

/-- The eight chunk products added, from zero, in order. -/
def acc (x0 : Vec F S1x1024x16 .i32) (x1 : Vec F S1x8192x64 .bf16) : FVec F S1024x64 .f32 :=
  (addf (addf (addf (addf (addf (addf (addf (addf
    (broadcast S1024x64 (Scalar.ofBits .f32 0x00000000#32))
    (part (tileIdx x0) 0#32 (View.ld x1 r1_1)))
    (part (tileIdx x0) 1024#32 (View.ld x1 r1_2)))
    (part (tileIdx x0) 2048#32 (View.ld x1 r1_3)))
    (part (tileIdx x0) 3072#32 (View.ld x1 r1_4)))
    (part (tileIdx x0) 4096#32 (View.ld x1 r1_5)))
    (part (tileIdx x0) 5120#32 (View.ld x1 r1_6)))
    (part (tileIdx x0) 6144#32 (View.ld x1 r1_7)))
    (part (tileIdx x0) 7168#32 (View.ld x1 r1_8)))

set_option maxRecDepth 65536 in
/-- The printed body's one store holds the accumulated chunk products times the word 0x3D800000 (1/16). -/
theorem out1_2_eq (x0 : Vec F S1x1024x16 .i32) (x1 : Vec F S1x8192x64 .bf16) :
    out1_2 x0 x1 = View.canon [⟨r1_9, shapeCast S1x1024x64
      (mulf (acc x0 x1) (broadcast S1024x64 (Scalar.ofBits .f32 0x3D800000#32))) shapeCasts_S1024x64_S1x1024x64⟩] := rfl

end Cert.KernelIdeal.Hand

end
-- ==== Proof.Reg1Math.lean ====
/-
  The counting identity behind the neighbour sum. For one token, `kn k` (k < 16) are its neighbour indices, words in
  [0, 8192), and `hrow r` (r < 8192) is one column of the table. The table's rows are cut into eight chunks of 1024; in chunk c
  the weight of row 1024·c + j is the number of k with kn k = 1024·c + j (compared as 32-bit words), and the weighted
  rows are added. Every k hits exactly one (c, j), so the eight chunk sums add up to Σ_k hrow (kn k).
-/
import Idealize.ShloMosaic.PureOps.Ideal
import Mathlib.Algebra.BigOperators.Fin
import Mathlib.Algebra.Order.BigOperators.Group.Finset
import Mathlib.Data.EReal.Operations

noncomputable section

open scoped BigOperators

namespace Cert.Spec.Count

/-- 1 where two words are equal, 0 elsewhere. -/
def ind (a b : BitVec 32) : EReal := if a = b then 1 else 0

/-- How many of the sixteen neighbour indices equal `key`. -/
def cnt (kn : Fin 16 → BitVec 32) (key : BitVec 32) : EReal := ∑ k : Fin 16, ind (kn k) key

/-- Chunk c's contribution: its 1024 rows, each weighted by how many neighbours name it. -/
def chunk (kn : Fin 16 → BitVec 32) (hrow : Fin 8192 → EReal) (c : Fin 8) : EReal :=
  ∑ j : Fin 1024, cnt kn (BitVec.ofNat 32 (1024 * c.val) + BitVec.ofNat 32 j.val) * hrow ⟨1024 * c.val + j.val, by omega⟩

/-- An indicator is never negative. -/
theorem ind_nonneg (a b : BitVec 32) : 0 ≤ ind a b := by
  unfold ind
  split
  · exact zero_le_one
  · exact le_refl 0

/-- An indicator times h is h on the diagonal and 0 off it. -/
theorem ind_mul (a b : BitVec 32) (h : EReal) : ind a b * h = if a = b then h else 0 := by
  unfold ind
  split
  · exact one_mul h
  · exact zero_mul h

/-- Over the extended reals a finite sum of non-negative terms distributes over a right factor. -/
theorem sum_mul_of_nonneg {ι : Type} (s : Finset ι) (f : ι → EReal) (hf : ∀ i ∈ s, 0 ≤ f i) (h : EReal) :
    (∑ i ∈ s, f i) * h = ∑ i ∈ s, f i * h := by
  classical
  induction s using Finset.induction_on with
  | empty => simp
  | insert a s ha ih =>
    have hs : ∀ i ∈ s, 0 ≤ f i := fun i hi => hf i (Finset.mem_insert_of_mem hi)
    rw [Finset.sum_insert ha, Finset.sum_insert ha,
      EReal.right_distrib_of_nonneg (hf a (Finset.mem_insert_self a s)) (Finset.sum_nonneg hs), ih hs]

/-- A word below 8192 equals the word of row 1024·c + j exactly when its value is 1024·c + j. -/
theorem key_eq_iff (x : BitVec 32) (c : Fin 8) (j : Fin 1024) :
    x = BitVec.ofNat 32 (1024 * c.val) + BitVec.ofNat 32 j.val ↔ x.toNat = 1024 * c.val + j.val := by
  have hc := c.isLt
  have hj := j.isLt
  constructor
  · intro h
    rw [h, BitVec.toNat_add, BitVec.toNat_ofNat, BitVec.toNat_ofNat]
    omega
  · intro h
    apply BitVec.eq_of_toNat_eq
    rw [h, BitVec.toNat_add, BitVec.toNat_ofNat, BitVec.toNat_ofNat]
    omega

/-- For one word x below 8192, exactly one (c, j) names it, so the double sum of the selected rows is row x. -/
theorem pick_row (x : BitVec 32) (hx : x.toNat < 8192) (hrow : Fin 8192 → EReal) :
    (∑ c : Fin 8, ∑ j : Fin 1024,
      (if x = BitVec.ofNat 32 (1024 * c.val) + BitVec.ofNat 32 j.val
        then hrow ⟨1024 * c.val + j.val, by omega⟩ else 0)) = hrow ⟨x.toNat, hx⟩ := by
  rw [Finset.sum_eq_single (⟨x.toNat / 1024, by omega⟩ : Fin 8)]
  · rw [Finset.sum_eq_single (⟨x.toNat % 1024, by omega⟩ : Fin 1024)]
    · rw [if_pos]
      · congr 1
        apply Fin.ext
        show 1024 * (x.toNat / 1024) + x.toNat % 1024 = x.toNat
        omega
      · rw [key_eq_iff]
        show x.toNat = 1024 * (x.toNat / 1024) + x.toNat % 1024
        omega
    · intro j _ hj
      rw [if_neg]
      rw [key_eq_iff]
      intro h
      apply hj
      apply Fin.ext
      show j.val = x.toNat % 1024
      have : (⟨x.toNat / 1024, by omega⟩ : Fin 8).val = x.toNat / 1024 := rfl
      omega
    · intro h; exact absurd (Finset.mem_univ _) h
  · intro c _ hc
    apply Finset.sum_eq_zero
    intro j _
    rw [if_neg]
    rw [key_eq_iff]
    intro h
    apply hc
    apply Fin.ext
    show c.val = x.toNat / 1024
    have := j.isLt
    omega
  · intro h; exact absurd (Finset.mem_univ _) h

/-- The eight chunks together are the sixteen named rows. -/
theorem chunks_sum (kn : Fin 16 → BitVec 32) (hr : ∀ k, (kn k).toNat < 8192) (hrow : Fin 8192 → EReal) :
    ∑ c : Fin 8, chunk kn hrow c = ∑ k : Fin 16, hrow ⟨(kn k).toNat % 8192, Nat.mod_lt _ (by decide)⟩ := by
  have hterm : ∀ (c : Fin 8) (j : Fin 1024),
      cnt kn (BitVec.ofNat 32 (1024 * c.val) + BitVec.ofNat 32 j.val) * hrow ⟨1024 * c.val + j.val, by omega⟩
        = ∑ k : Fin 16, (if kn k = BitVec.ofNat 32 (1024 * c.val) + BitVec.ofNat 32 j.val
            then hrow ⟨1024 * c.val + j.val, by omega⟩ else 0) := by
    intro c j
    unfold cnt
    rw [sum_mul_of_nonneg _ _ (fun k _ => ind_nonneg _ _)]
    exact Finset.sum_congr rfl (fun k _ => ind_mul _ _ _)
  unfold chunk
  simp only [hterm]
  -- bring the sum over the sixteen neighbours to the outside
  have hswap : ∀ c : Fin 8,
      (∑ j : Fin 1024, ∑ k : Fin 16, (if kn k = BitVec.ofNat 32 (1024 * c.val) + BitVec.ofNat 32 j.val
            then hrow ⟨1024 * c.val + j.val, by omega⟩ else 0))
        = ∑ k : Fin 16, ∑ j : Fin 1024, (if kn k = BitVec.ofNat 32 (1024 * c.val) + BitVec.ofNat 32 j.val
            then hrow ⟨1024 * c.val + j.val, by omega⟩ else 0) := fun c => Finset.sum_comm
  simp only [hswap]
  rw [Finset.sum_comm]
  apply Finset.sum_congr rfl
  intro k _
  rw [pick_row (kn k) (hr k) hrow]
  congr 1
  apply Fin.ext
  exact (Nat.mod_eq_of_lt (hr k)).symm

end Cert.Spec.Count

end
-- ==== Proof.Reg1Index.lean ====
/-
  The second pallas_call's stored block read at an index (n, o): the accumulated chunk products there are the eight chunk
  sums of the counting identity for token n's sixteen neighbour words against column o of the table, so — the neighbour
  words being in [0, 8192) — the sixteen named rows of the table at column o, added, times 1/16.
-/
import proofs.«428082_j83803401880152_3_alg».proof.Proof.Reg1Shape
import proofs.«428082_j83803401880152_3_alg».proof.Proof.Reg1Math
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem Idealize.ShloMosaic.ValueIdx

/-- The zero offsets of a whole-block rectangle, spelt as the constant function. -/
theorem zero_off3 : (![0, 0, 0] : Fin 3 → Nat) = fun _ => 0 := funext fun a => by fin_cases a <;> rfl

/-- The word 0x3D800000 denotes 1/16. -/
theorem ofBits_sixteenth : Ideal.ofBits .f32 0x3D800000#32 = (((1 / 16 : ℝ)) : EReal) := by
  simp [Ideal.ofBits, Ideal.ieee, -EReal.coe_mul]; norm_num

/-- The stored block at (0, n, o) is the accumulated chunk products at (n, o), times 1/16. -/
theorem out1_2_at (x0 : Vec Ideal S1x1024x16 .i32) (x1 : Vec Ideal S1x8192x64 .bf16) (n : Fin 1024) (o : Fin 64) :
    (out1_2 (F := Ideal) x0 x1 : S1x1024x64.Idx → EReal) (ix3 (0 : Fin 1) n o)
      = (acc (F := Ideal) x0 x1 : S1024x64.Idx → EReal) (ix2 n o) * (((1 / 16 : ℝ)) : EReal) := by
  rw [out1_2_eq, View.canon_unit_zero zero_off3]
  rw [shapeCast_ab_1ab_apply, mulf_apply, broadcast_apply]
  show _ * Ideal.ofBits .f32 0x3D800000#32 = _
  rw [ofBits_sixteenth]

/-! ## One chunk's product read at an index: the contraction over the 1024 keys -/

/-- The product's operand indices at output index i and contraction position q: the left operand is read at (i 0, q) and the
    right at (q, i 1). One coordinate per lemma. -/
theorem lhs_part_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem lhs_part_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_part_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_part_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The product of a [1024, 1024] matrix and a [1024, 64] matrix into the zero accumulator, at (n, o): the sum over the
    shared axis of the row's entries times the column's. -/
theorem matmul_at (A : FVec Ideal S1024x1024 .bf16) (B : FVec Ideal S1024x64 .bf16) (n : Fin 1024) (o : Fin 64) :
    (matmul dot_S1024x1024_S1024x64_S1024x64_1_0_0_1_n_n none A B (constant (F := Ideal) S1024x64 .f32 0x00000000#32)
        : S1024x64.Idx → EReal) (ix2 n o)
      = ∑ j : Fin 1024, A (ix2 n j) * B (ix2 j o) := by
  simp only [matmul]
  rw [Ideal.matmul_constant_zero_apply,
    ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 n o)
      ((contrEquiv1 dot_S1024x1024_S1024x64_S1024x64_1_0_0_1_n_n 1024 rfl rfl).symm k) = ix2 n k :=
    funext fun a => Fin.ext (by
      match a with
      | ⟨0, _⟩ => exact lhs_part_0 _ _
      | ⟨1, _⟩ => exact (lhs_part_1 _ _).trans hk)
  have er : dot_S1024x1024_S1024x64_S1024x64_1_0_0_1_n_n.rhsIdx (ix2 n o)
      ((contrEquiv1 dot_S1024x1024_S1024x64_S1024x64_1_0_0_1_n_n 1024 rfl rfl).symm k) = ix2 k o :=
    funext fun a => Fin.ext (by
      match a with
      | ⟨0, _⟩ => exact (rhs_part_0 _ _).trans hk
      | ⟨1, _⟩ => exact rhs_part_1 _ _)
  rw [el, er]

/-- One chunk's product at (n, o): the chunk's count matrix along row n against column o of the chunk's 1024 table rows. -/
theorem part_at (v1 : IVec S1024x16 32) (base : BitVec 32) (hc : Vec Ideal S1x1024x64 .bf16) (n : Fin 1024) (o : Fin 64) :
    (part (F := Ideal) v1 base hc : S1024x64.Idx → EReal) (ix2 n o)
      = ∑ j : Fin 1024, (counts (F := Ideal) v1 (keysOf base) : S1024x1024.Idx → EReal) (ix2 n j)
          * (hc (ix3 (0 : Fin 1) j o) : EReal) := by
  unfold part
  rw [matmul_at]
  refine Finset.sum_congr rfl fun j _ => ?_
  rw [truncf_apply, shapeCast_1ab_ab_apply]

/-! ## The loads: 1024 consecutive table rows from a row offset, and the tile's own index block -/

/-- Rows off1 … off1 + 1023 of the table block, read at (0, j, o): row off1 + j of the block. -/
theorem ld_rows (x1 : Vec Ideal S1x8192x64 .bf16) (off1 : Nat)
    (inb : ∀ a, (![0, off1, 0] : Fin 3 → Nat) a + S1x1024x64.size a ≤ S1x8192x64.size a)
    (j : Fin 1024) (o : Fin 64) (r : Fin 8192) (hr : r.val = off1 + j.val) :
    (View.ld x1 (Rect.unit (s := S1x8192x64) ![0, off1, 0] S1x1024x64.size inb) : S1x1024x64.Idx → EReal)
        (ix3 (0 : Fin 1) j o) = (x1 (ix3 (0 : Fin 1) r o) : EReal) := by
  show (x1 _ : EReal) = x1 _
  refine congrArg x1 (funext fun a => Fin.ext ?_)
  match a with
  | ⟨0, _⟩ => rfl
  | ⟨1, _⟩ => show off1 + 1 * j.val = r.val; omega
  | ⟨2, _⟩ => show 0 + 1 * o.val = o.val; omega

/-- The tile's index block viewed [1024, 16], at (n, k): the block at (0, n, k). -/
theorem tileIdx_at (x0 : Vec Ideal S1x1024x16 .i32) (n : Fin 1024) (k : Fin 16) :
    tileIdx (F := Ideal) x0 (ix2 n k) = (x0 (ix3 (0 : Fin 1) n k) : BitVec 32) := by
  unfold tileIdx
  rw [shapeCast_1ab_ab_apply, View.ld_unit_zero (S := S1x1024x16) zero_off3]

/-! ## The keys and the comparisons -/

/-- Key j of every row of the chunk that starts at base is the word base + j. -/
theorem keysOf_at (base : BitVec 32) (n j : Fin 1024) : keysOf base (ix2 n j) = base + BitVec.ofNat 32 j.val := by
  unfold keysOf
  show IntOp.addi (broadcast S1024x1024 base (ix2 n j)) (iota .tc S1024x1024 32 [1] iota_S1024x1024_d1_w32 (ix2 n j)) = _
  rw [broadcast_apply, iota_single_apply]
  rfl

/-- The comparison bit of two words, widened to 32 bits and read as a signed integer, is the indicator of their equality. -/
theorem sitofp_eq_bit (a c : BitVec 32) :
    (FloatOps.sitofp (F := Ideal) .f32 ((IntOp.cmpi .eq a c).setWidth 32) : EReal) = Cert.Spec.Count.ind a c := by
  show (((((BitVec.ofBool (a == c)).setWidth 32).toInt : ℝ)) : EReal) = if a = c then 1 else 0
  by_cases h : a = c
  · rw [if_pos h, show (a == c) = true from beq_iff_eq.mpr h]
    have e : ((BitVec.ofBool true).setWidth 32).toInt = 1 := by decide
    rw [e]; simp
  · rw [if_neg h, show (a == c) = false from beq_eq_false_iff_ne.mpr h]
    have e : ((BitVec.ofBool false).setWidth 32).toInt = 0 := by decide
    rw [e]; simp

/-- Neighbour column k against the keys, at (n, j): 1 where token n's k-th neighbour word is key (n, j), else 0. -/
theorem hit_at (v1 : IVec S1024x16 32) (keys : IVec S1024x1024 32) (off1 : Nat) (h : S1024x16.Slices ![0, off1] S1024x1)
    (n j : Fin 1024) (k : Fin 16) (hk : k.val = off1) :
    (hit (F := Ideal) v1 keys ![0, off1] h : S1024x1024.Idx → EReal) (ix2 n j)
      = Cert.Spec.Count.ind (v1 (ix2 n k)) (keys (ix2 n j)) := by
  unfold hit
  rw [sitofp_apply, extui_apply]
  show (FloatOps.sitofp (F := Ideal) .f32 ((IntOp.cmpi .eq
      (broadcastTo S1024x1024 (extractStridedSlice S1024x1 ![0, off1] v1 h) broadcasts_S1024x1_S1024x1024 (ix2 n j))
      (keys (ix2 n j))).setWidth 32) : EReal) = _
  rw [broadcastTo_apply _ _ (ix2 n j) (ix2 n (0 : Fin 1)) (fun a => by
        match a with
        | ⟨0, _⟩ => rfl
        | ⟨1, _⟩ => rfl),
    slice2_axis1_apply off1 v1 h n (0 : Fin 1) k (by show k.val = off1 + 0; omega), sitofp_eq_bit]

/-- A sum over sixteen, written from zero, in order, nested to the left. -/
theorem sum16_left (f : Fin 16 → EReal) :
    ∑ k : Fin 16, f k
      = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-- The count matrix at (n, j): how many of token n's sixteen neighbour words are key (n, j). -/
theorem counts_at (v1 : IVec S1024x16 32) (keys : IVec S1024x1024 32) (n j : Fin 1024) :
    (counts (F := Ideal) v1 keys : S1024x1024.Idx → EReal) (ix2 n j)
      = Cert.Spec.Count.cnt (fun k => v1 (ix2 n k)) (keys (ix2 n j)) := by
  unfold counts
  simp only [addf_apply, broadcast_apply]
  rw [hit_at v1 keys 0 _ n j 0 rfl, hit_at v1 keys 1 _ n j 1 rfl, hit_at v1 keys 2 _ n j 2 rfl,
    hit_at v1 keys 3 _ n j 3 rfl, hit_at v1 keys 4 _ n j 4 rfl, hit_at v1 keys 5 _ n j 5 rfl,
    hit_at v1 keys 6 _ n j 6 rfl, hit_at v1 keys 7 _ n j 7 rfl, hit_at v1 keys 8 _ n j 8 rfl,
    hit_at v1 keys 9 _ n j 9 rfl, hit_at v1 keys 10 _ n j 10 rfl, hit_at v1 keys 11 _ n j 11 rfl,
    hit_at v1 keys 12 _ n j 12 rfl, hit_at v1 keys 13 _ n j 13 rfl, hit_at v1 keys 14 _ n j 14 rfl,
    hit_at v1 keys 15 _ n j 15 rfl]
  show Ideal.ofBits .f32 0x00000000#32 + _ + _ + _ + _ + _ + _ + _ + _ + _ + _ + _ + _ + _ + _ + _ + _ = _
  rw [Ideal.ofBits_zero_f32]
  unfold Cert.Spec.Count.cnt
  rw [sum16_left]

/-! ## The chunks, and the eight of them added -/

/-- The product of the chunk whose keys start at 1024·c, against table rows 1024·c … 1024·c + 1023, at (n, o): chunk c's
    term of the counting identity for token n's neighbour words and column o of the table. -/
theorem part_chunk (x0 : Vec Ideal S1x1024x16 .i32) (x1 : Vec Ideal S1x8192x64 .bf16) (n : Fin 1024) (o : Fin 64)
    (c : Fin 8) (base : BitVec 32) (hb : base = BitVec.ofNat 32 (1024 * c.val)) (off1 : Nat) (ho : off1 = 1024 * c.val)
    (inb : ∀ a, (![0, off1, 0] : Fin 3 → Nat) a + S1x1024x64.size a ≤ S1x8192x64.size a) :
    (part (F := Ideal) (tileIdx x0) base (View.ld x1 (Rect.unit (s := S1x8192x64) ![0, off1, 0] S1x1024x64.size inb))
        : S1024x64.Idx → EReal) (ix2 n o)
      = Cert.Spec.Count.chunk (fun k => (x0 (ix3 (0 : Fin 1) n k) : BitVec 32))
          (fun r => (x1 (ix3 (0 : Fin 1) r o) : EReal)) c := by
  rw [part_at]
  unfold Cert.Spec.Count.chunk
  refine Finset.sum_congr rfl fun j _ => ?_
  rw [counts_at, keysOf_at,
    ld_rows x1 off1 inb j o ⟨1024 * c.val + j.val, by omega⟩ (by show 1024 * c.val + j.val = off1 + j.val; omega)]
  subst hb
  simp only [tileIdx_at]

/-- The accumulated chunk products at (n, o): the eight chunk terms, added. -/
theorem acc_at (x0 : Vec Ideal S1x1024x16 .i32) (x1 : Vec Ideal S1x8192x64 .bf16) (n : Fin 1024) (o : Fin 64) :
    (acc (F := Ideal) x0 x1 : S1024x64.Idx → EReal) (ix2 n o)
      = ∑ c : Fin 8, Cert.Spec.Count.chunk (fun k => (x0 (ix3 (0 : Fin 1) n k) : BitVec 32))
          (fun r => (x1 (ix3 (0 : Fin 1) r o) : EReal)) c := by
  unfold acc
  simp only [addf_apply, broadcast_apply]
  rw [part_chunk x0 x1 n o 0 0#32 rfl 0 rfl, part_chunk x0 x1 n o 1 1024#32 rfl 1024 rfl,
    part_chunk x0 x1 n o 2 2048#32 rfl 2048 rfl, part_chunk x0 x1 n o 3 3072#32 rfl 3072 rfl,
    part_chunk x0 x1 n o 4 4096#32 rfl 4096 rfl, part_chunk x0 x1 n o 5 5120#32 rfl 5120 rfl,
    part_chunk x0 x1 n o 6 6144#32 rfl 6144 rfl, part_chunk x0 x1 n o 7 7168#32 rfl 7168 rfl]
  show Ideal.ofBits .f32 0x00000000#32 + _ + _ + _ + _ + _ + _ + _ + _ = _
  rw [Ideal.ofBits_zero_f32, Fin.sum_univ_eight, zero_add]

/-- What the body stores, at token n and column o of the tile. -/
theorem out1_2_apply (x0 : Vec Ideal S1x1024x16 .i32) (x1 : Vec Ideal S1x8192x64 .bf16)
    (hr : ∀ i : S1x1024x16.Idx, ((x0 i : BitVec 32)).toNat < 8192) (n : Fin 1024) (o : Fin 64) :
    (out1_2 (F := Ideal) x0 x1 : S1x1024x64.Idx → EReal) (ix3 (0 : Fin 1) n o)
      = (∑ k : Fin 16, (x1 (ix3 (0 : Fin 1) (⟨((x0 (ix3 (0 : Fin 1) n k) : BitVec 32)).toNat % 8192, Nat.mod_lt _ (by decide)⟩ : Fin 8192) o) : EReal))
          * (((1 / 16 : ℝ)) : EReal) := by
  rw [out1_2_at, acc_at, Cert.Spec.Count.chunks_sum _ (fun k => hr (ix3 (0 : Fin 1) n k))]

end Cert.KernelIdeal.Hand

end
-- ==== Proof.Reg1Value.lean ====
/-
  The second kernel, read as a value: on neighbour indices inside [0, 8192) it leaves in its output array the neighbour
  mean of the array `h` it reads — the count matrix of a query tile against a key chunk, multiplied into the chunk and
  added over the eight chunks, is the sum of the sixteen rows the tile's tokens name.

  Here: from the stored tile to the whole array. The grid is 8 batches by 8 tiles of 1024 tokens. At point (b, i) the
  neighbour-word block is rows 1024·i … 1024·i + 1023 of batch b, the table block is the whole of batch b, and the
  stored tile is rows 1024·i … 1024·i + 1023 of batch b of the output. So what point (b, i) writes back is that block
  of the neighbour mean, and since row (b, r) lies in the tile of point (b, r / 1024), the tiles fill the array.
-/
import proofs.«428082_j83803401880152_3_alg».proof.Proof.Gen.KernelIdeal.Frame
import proofs.«428082_j83803401880152_3_alg».proof.Proof.Reg1Index
import proofs.«428082_j83803401880152_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three block-index maps over the 64 grid points: the neighbour-word block and the stored tile share batch and
    tile indices, the table block shares the batch index and is otherwise the whole slab, and both indices stay below 8. -/
theorem gather_block_indices : ∀ t : Fin cfg1.N,
    win1_0.index t (0 : Fin 3) = win1_2.index t (0 : Fin 3)
  ∧ win1_0.index t (1 : Fin 3) = win1_2.index t (1 : Fin 3)
  ∧ win1_0.index t (2 : Fin 3) = 0
  ∧ win1_1.index t (0 : Fin 3) = win1_2.index t (0 : Fin 3)
  ∧ win1_1.index t (1 : Fin 3) = 0
  ∧ win1_1.index t (2 : Fin 3) = 0
  ∧ win1_2.index t (2 : Fin 3) = 0
  ∧ win1_2.index t (0 : Fin 3) ≤ 7 ∧ win1_2.index t (1 : Fin 3) ≤ 7 :=
  (by decide +kernel : ∀ t : Fin grid1.N, _)

/-- Every (batch, tile) pair is some grid point's. -/
theorem gather_block_onto : ∀ (q0 : Fin 8) (q1 : Fin 8), ∃ t : Fin cfg1.N, win1_2.index t = ![q0.val, q1.val, 0] :=
  (by decide +kernel : ∀ (q0 : Fin 8) (q1 : Fin 8), ∃ t : Fin grid1.N, win1_2.index t = ![q0.val, q1.val, 0])

/-- One entry of the stored tile, for blocks that are rows 1024·i … of batch b of `knn` and the whole batch b of `h`:
    the neighbour mean of `h` along `knn` at (b, 1024·i + n, o). -/
theorem gather_tile_entry (x0 : Vec Ideal S1x1024x16 .i32) (x1 : Vec Ideal S1x8192x64 .bf16)
    (knn : Cert.Spec.S8x8192x16.Idx → BitVec 32) (h : Cert.Spec.S8x8192x64.Idx → EReal)
    (hr : ∀ i : S1x1024x16.Idx, ((x0 i : BitVec 32)).toNat < 8192)
    (b : Fin 8) (i : Fin 8)
    (hx0 : ∀ (n : Fin 1024) (k : Fin 16), (x0 (ix3 (0 : Fin 1) n k) : BitVec 32) = knn (ix3 b (⟨1024 * i.val + n.val, by omega⟩ : Fin 8192) k))
    (hx1 : ∀ (r : Fin 8192) (o : Fin 64), (x1 (ix3 (0 : Fin 1) r o) : EReal) = h (ix3 b r o))
    (n : Fin 1024) (o : Fin 64) :
    (out1_2 (F := Ideal) x0 x1 : S1x1024x64.Idx → EReal) (ix3 (0 : Fin 1) n o)
      = Cert.Spec.agg knn h (ix3 b (⟨1024 * i.val + n.val, by omega⟩ : Fin 8192) o) := by
  rw [out1_2_apply x0 x1 hr n o, Cert.Spec.agg_ix3]
  unfold Cert.Spec.aggAt Cert.Spec.nbr
  congr 1
  refine Finset.sum_congr rfl fun k _ => ?_
  rw [hx1, hx0]

/-- An element (n, o) of the stored tile at the point with indices (b, i) sits in the output array at (b, 1024·i + n, o). -/
theorem gather_out_block_at (t : Fin cfg1.N) (b i : Fin 8) (hb : win1_2.index t (0 : Fin 3) = b.val) (hi : win1_2.index t (1 : Fin 3) = i.val)
    (n : Fin 1024) (o : Fin 64) :
    ((cfg1.win 2).blk t).view.emb (ix3 (0 : Fin 1) n o) = (ix3 b (⟨1024 * i.val + n.val, by omega⟩ : Fin 8192) o : S8x8192x64.Idx) := by
  obtain ⟨e0, e1, e2, e3, e4, e5, e6, e7, e8⟩ := gather_block_indices t
  funext a; apply Fin.ext
  match a with
  | ⟨0, _⟩ => show win1_2.index t (0 : Fin 3) * 1 + 1 * 0 = b.val; omega
  | ⟨1, _⟩ => show win1_2.index t (1 : Fin 3) * 1024 + 1 * n.val = 1024 * i.val + n.val; omega
  | ⟨2, _⟩ => show win1_2.index t (2 : Fin 3) * 64 + 1 * o.val = o.val; omega

/-- An element (n, k) of the neighbour-word block at that point sits in the word array at (b, 1024·i + n, k). -/
theorem gather_knn_block_at (t : Fin cfg1.N) (b i : Fin 8) (hb : win1_2.index t (0 : Fin 3) = b.val) (hi : win1_2.index t (1 : Fin 3) = i.val)
    (n : Fin 1024) (k : Fin 16) :
    ((cfg1.win 0).blk t).view.emb (ix3 (0 : Fin 1) n k) = (ix3 b (⟨1024 * i.val + n.val, by omega⟩ : Fin 8192) k : S8x8192x16.Idx) := by
  obtain ⟨e0, e1, e2, e3, e4, e5, e6, e7, e8⟩ := gather_block_indices t
  funext a; apply Fin.ext
  match a with
  | ⟨0, _⟩ => show win1_0.index t (0 : Fin 3) * 1 + 1 * 0 = b.val; omega
  | ⟨1, _⟩ => show win1_0.index t (1 : Fin 3) * 1024 + 1 * n.val = 1024 * i.val + n.val; omega
  | ⟨2, _⟩ => show win1_0.index t (2 : Fin 3) * 16 + 1 * k.val = k.val; omega

/-- An element (r, o) of the table block at that point sits in the table at (b, r, o): the block is batch b, whole. -/
theorem gather_table_block_at (t : Fin cfg1.N) (b : Fin 8) (hb : win1_2.index t (0 : Fin 3) = b.val)
    (r : Fin 8192) (o : Fin 64) :
    ((cfg1.win 1).blk t).view.emb (ix3 (0 : Fin 1) r o) = (ix3 b r o : S8x8192x64.Idx) := by
  obtain ⟨e0, e1, e2, e3, e4, e5, e6, e7, e8⟩ := gather_block_indices t
  funext a; apply Fin.ext
  match a with
  | ⟨0, _⟩ => show win1_1.index t (0 : Fin 3) * 1 + 1 * 0 = b.val; omega
  | ⟨1, _⟩ => show win1_1.index t (1 : Fin 3) * 8192 + 1 * r.val = r.val; omega
  | ⟨2, _⟩ => show win1_1.index t (2 : Fin 3) * 64 + 1 * o.val = o.val; omega

/-- What point `t` writes back is block `t` of the neighbour mean of the table along the neighbour words, both as the
    region finds them. -/
theorem gather_tile_written (c : Dev nD) (hr : ∀ i : S8x8192x16.Idx, ((V c main_arg1 : S8x8192x16.Idx → BitVec 32) i).toNat < 8192) (t : Fin cfg1.N) :
    (dat1 (F := Ideal) V c).flushed 2 t = ((cfg1.win 2).blk t).view.read (Elt Ideal) (Cert.Spec.agg (V c main_arg1) (V c main_v0)) := by
  show (cfg1.win 2).cut (grid1.coords t) ((dat1 V c).after 2 t) = _
  rw [after1_2]
  funext y
  show (out1_2 (F := Ideal) (iblk1 V c 0 t) (iblk1 V c 1 t) : S1x1024x64.Idx → EReal) y = Cert.Spec.agg (V c main_arg1) (V c main_v0) (((cfg1.win 2).blk t).view.emb y)
  obtain ⟨n, o, rfl⟩ : ∃ (n : Fin 1024) (o : Fin 64), y = ix3 (0 : Fin 1) n o :=
    ⟨⟨(y 1).val, (y 1).isLt⟩, ⟨(y 2).val, (y 2).isLt⟩, by
      funext a
      match a with
      | ⟨0, _⟩ => apply Fin.ext; show (y 0).val = 0; have : (y 0).val < 1 := (y 0).isLt; omega
      | ⟨1, _⟩ => rfl
      | ⟨2, _⟩ => rfl⟩
  obtain ⟨e0, e1, e2, e3, e4, e5, e6, e7, e8⟩ := gather_block_indices t
  have hb : win1_2.index t (0 : Fin 3) = (⟨win1_2.index t (0 : Fin 3), by omega⟩ : Fin 8).val := rfl
  have hi : win1_2.index t (1 : Fin 3) = (⟨win1_2.index t (1 : Fin 3), by omega⟩ : Fin 8).val := rfl
  rw [gather_out_block_at t _ _ hb hi n o]
  refine gather_tile_entry _ _ (V c main_arg1) (V c main_v0) (fun j => ?_) _ _ (fun n k => ?_) (fun r o => ?_) n o
  · exact hr _
  · show V c main_arg1 (((cfg1.win 0).blk t).view.emb (ix3 (0 : Fin 1) n k)) = _
    rw [gather_knn_block_at t _ _ hb hi n k]
  · show V c main_v0 (((cfg1.win 1).blk t).view.emb (ix3 (0 : Fin 1) r o)) = _
    rw [gather_table_block_at t _ hb r o]

/-- An index of the output array is in point `t`'s tile iff each coordinate is in the tile's range on its axis. -/
theorem gather_mem_out_block (t : Fin cfg1.N) (i : S8x8192x64.Idx) :
    i ∈ ((cfg1.win 2).blk t).view.set ↔ ∀ a : Fin 3, win1_2.index t a * S1x1024x64.size a ≤ (i a).val ∧ (i a).val < win1_2.index t a * S1x1024x64.size a + S1x1024x64.size a := by
  show i ∈ ((View.whole main_v1).slice (win1_2.rect t)).set ↔ _
  rw [View.set_slice_whole, Rect.mem_set_unit]
  exact Iff.rfl

/-- Row (b, r) of the output is in the tile of the point with indices (b, r / 1024). -/
theorem gather_row_covered (i : S8x8192x64.Idx) :
    ∃ t : Fin cfg1.N, (cfg1.win 2).flush t = true ∧ i ∈ ((cfg1.win 2).blk t).view.set := by
  have hi0 : (i 0).val < 8 := (i 0).isLt
  have hi1 : (i 1).val < 8192 := (i 1).isLt
  have hi2 : (i 2).val < 64 := (i 2).isLt
  obtain ⟨t, ht⟩ := gather_block_onto ⟨(i 0).val, hi0⟩ ⟨(i 1).val / 1024, by omega⟩
  have q0 : win1_2.index t (0 : Fin 3) = (i 0).val := congrFun ht 0
  have q1 : win1_2.index t (1 : Fin 3) = (i 1).val / 1024 := congrFun ht 1
  have q2 : win1_2.index t (2 : Fin 3) = 0 := congrFun ht 2
  refine ⟨t, flush1_2 t, ?_⟩
  rw [gather_mem_out_block]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 64 ≤ (i 2).val ∧ (i 2).val < win1_2.index t (2 : Fin 3) * 64 + 64; omega

theorem region1_final (c : Dev nD) (hr : ∀ i : S8x8192x16.Idx, ((V c main_arg1 : S8x8192x16.Idx → BitVec 32) i).toNat < 8192) :
    (dat1 (F := Ideal) V c).arrAt 2 cfg1.N = Cert.Spec.agg (V c main_arg1) (V c main_v0) :=
  (dat1 (F := Ideal) V c).arrAt_eq_of_cover 2 (Cert.Spec.agg (V c main_arg1) (V c main_v0))
    (fun t _ => gather_tile_written V c hr t) (fun i => gather_row_covered i)

end Cert.KernelIdeal.Hand

end
-- ==== Proof.KValue.lean ====
/-
  The kernel program's value. Its first pallas_call leaves the projection h = x · wᵀ in the table buffer; its second, reading
  that buffer and the neighbour indices, leaves the neighbour mean; the host operations after them normalise it. Read through
  the boundaries of the generated run, the result buffer ends at tail (agg knn (proj x w)) gamma beta.
-/
import proofs.«428082_j83803401880152_3_alg».proof.Proof.KRun
import proofs.«428082_j83803401880152_3_alg».proof.Proof.KTail
import proofs.«428082_j83803401880152_3_alg».proof.Proof.Reg0Value
import proofs.«428082_j83803401880152_3_alg».proof.Proof.Reg1Value
import proofs.«428082_j83803401880152_3_alg».proof.Proof.Spec
import proofs.«428082_j83803401880152_3_alg».proof.Proof.Tail

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- At the first call's exit the table buffer holds the projection of x and w as launched. -/
theorem table_eq (c : Dev nD) :
    V1 m ρ c main_v0 = Cert.Spec.proj (m ((c.tc : Thread nD τ).loc main_arg0)) (m ((c.tc : Thread nD τ).loc main_arg2)) :=
  (W1_arr m ρ c 2).trans (region0_final (V0 m ρ) c)

/-- The first call leaves the neighbour indices as launched. -/
theorem knn_eq (c : Dev nD) : V1 m ρ c main_arg1 = m ((c.tc : Thread nD τ).loc main_arg1) :=
  W1_of_ne m ρ c main_arg1 (by decide)

/-- At the second call's exit its output buffer holds the neighbour mean of that projection. -/
theorem agg_eq (c : Dev nD)
    (hr : ∀ i : S8x8192x16.Idx, ((m ((c.tc : Thread nD τ).loc main_arg1) : S8x8192x16.Idx → BitVec 32) i).toNat < 8192) :
    W2 m ρ c (Proc.devRef .tc main_v1)
      = Cert.Spec.agg (m ((c.tc : Thread nD τ).loc main_arg1))
          (Cert.Spec.proj (m ((c.tc : Thread nD τ).loc main_arg0)) (m ((c.tc : Thread nD τ).loc main_arg2))) := by
  refine (W2_arr m ρ c 2).trans ((region1_final (V1 m ρ) c (by rw [knn_eq m ρ c]; exact hr)).trans ?_)
  rw [knn_eq m ρ c, table_eq m ρ c]

/-- Neither call writes gamma … -/
theorem gamma_eq (c : Dev nD) : W2 m ρ c (Proc.devRef .tc main_arg3) = m ((c.tc : Thread nD τ).loc main_arg3) :=
  (W2_of_ne m ρ c main_arg3 (by decide)).trans (W1_of_ne m ρ c main_arg3 (by decide))

/-- … nor beta. -/
theorem beta_eq (c : Dev nD) : W2 m ρ c (Proc.devRef .tc main_arg4) = m ((c.tc : Thread nD τ).loc main_arg4) :=
  (W2_of_ne m ρ c main_arg4 (by decide)).trans (W1_of_ne m ρ c main_arg4 (by decide))

/-- The result buffer's final contents: the normalisation of the neighbour mean of the projection, of gamma and of beta. -/
theorem result_eq (c : Dev nD)
    (hr : ∀ i : S8x8192x16.Idx, ((m ((c.tc : Thread nD τ).loc main_arg1) : S8x8192x16.Idx → BitVec 32) i).toNat < 8192) :
    W5 m ρ c (Proc.devRef .tc main_v22)
      = Cert.Tail.tail (Cert.Spec.agg (m ((c.tc : Thread nD τ).loc main_arg1))
            (Cert.Spec.proj (m ((c.tc : Thread nD τ).loc main_arg0)) (m ((c.tc : Thread nD τ).loc main_arg2))))
          (m ((c.tc : Thread nD τ).loc main_arg3)) (m ((c.tc : Thread nD τ).loc main_arg4)) := by
  show StableHlo.after hostOps2_2 (StableHlo.after hostOps2_1 (StableHlo.after hostOps2 (W2 m ρ c))) (Proc.devRef .tc main_v22) = _
  rw [ktail_eq, agg_eq m ρ c hr, gamma_eq m ρ c, beta_eq m ρ c]

/-- The kernel program's run, read: on neighbour indices inside [0, 8192) every weakly fair execution terminates with the
    result array at that value and the arguments as launched. -/
theorem kernel_run
    (hr : ∀ (c : Dev nD) (i : S8x8192x16.Idx), ((m ((c.tc : Thread nD τ).loc main_arg1) : S8x8192x16.Idx → BitVec 32) i).toNat < 8192) :
    θ_run defs (onTc (τ := τ) (main (F := Ideal))) ⟨m, fun _ => 0, ρ⟩ fun r => ∀ c : Dev nD,
      r.2.mem ((c.tc : Thread nD τ).loc main_v22)
        = Cert.Tail.tail (Cert.Spec.agg (m ((c.tc : Thread nD τ).loc main_arg1))
              (Cert.Spec.proj (m ((c.tc : Thread nD τ).loc main_arg0)) (m ((c.tc : Thread nD τ).loc main_arg2))))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (result_eq m ρ c (hr c)), (h c).2⟩) (Gen.run_result m ρ)

end Cert.KernelIdeal.Hand

end
-- ==== Proof.RefTerm.lean ====
/-
  The reference's neighbour mean as ONE term of its arguments: the projection (a dot_general), the sixteen rows each token
  names gathered from it (negative indices wrapped by the array's length, as jnp indexing does, then clamped by the gather),
  added over the neighbour axis, divided by sixteen.
-/
import proofs.«428082_j83803401880152_3_alg».proof.ReferenceIdeal
import proofs.«428082_j83803401880152_3_alg».proof.Proof.Gen.ReferenceIdeal

noncomputable section

open scoped BigOperators

namespace Cert.ReferenceIdeal.Hand

open Cert.ReferenceIdeal Cert.ReferenceIdeal.Gen Idealize.ShloMosaic Idealize.ShloMosaic.TcCoe Idealize.SL.Sem

variable {F : FTy → Type} [FloatOps F]

/-- The neighbour index as the reference reads it: a negative one moved up by the array's length. -/
def wrapped (knn : IVec S8x8192x16 32) : IVec S8x8192x16 32 :=
  select (cmpi .slt knn (broadcastInDim S8x8192x16 ![] bcast_S_S8x8192x16 (constantI S_ 32 0#32)))
    (addi knn (broadcastInDim S8x8192x16 ![] bcast_S_S8x8192x16 (constantI S_ 32 8192#32))) knn

/-- The reference's neighbour mean, operation by operation. -/
def refAgg (x : FVec F S8x8192x64 .f32) (knn : IVec S8x8192x16 32) (w : FVec F S64x64 .f32) : FVec F S8x8192x64 .f32 :=
  Host.divf
    (Host.reduceAdd
      (Host.gather gather_S8x8192x64_S8x8192x16x1_S8x8192x16x64_3_1_0_0_1_3_1164
        (Host.dotGeneral dot_S8x8192x64_S64x64_S8x8192x64_2_1_01_0_n_n none x w)
        (broadcastInDim S8x8192x16x1 ![0, 1, 2] bcast_S8x8192x16_S8x8192x16x1_0_1_2 (wrapped knn)))
      (constant S_ .f32 0x00000000#32) reducesTo_S8x8192x16x64_S8x8192x64_d2 h_S_)
    (broadcastInDim S8x8192x64 ![] bcast_S_S8x8192x64 (constant S_ .f32 0x41800000#32))

end Cert.ReferenceIdeal.Hand

end
-- ==== Proof.RefRun.lean ====
/-
  The reference's @main as a list of host operations and its run read back: every weakly fair execution terminates with the
  result buffer at the normalisation of the reference's neighbour mean of the arguments, the arguments unchanged.
-/
import proofs.«428082_j83803401880152_3_alg».proof.Proof.RefTerm
import proofs.«428082_j83803401880152_3_alg».proof.Proof.Tail
import Idealize.ShloMosaic.Lib.StableHlo.Run

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

/-- @main's sixty-one operations in order, its two calls unfolded: the twenty-two that build the neighbour mean and the
    column means (the projection, the neighbour index wrapped, the gather, the sum over the neighbour axis, the division
    by sixteen, the rows laid out as 65536 × 64, the column sums and their division by the row count), the variance
    function's nineteen over its own buffers, the three of the selection it calls in turn (the fallback value converted to
    its own type, spread over the columns, the select), and the seventeen that centre, scale and shift. -/
abbrev ops : List (HloOp τ sig (Elt F)) :=
  [ StableHlo.binary main_arg0 main_arg2 main_v0 ((fun l r => Host.dotGeneral dot_S8x8192x64_S64x64_S8x8192x64_2_1_01_0_n_n none l r) : (⟨S8x8192x64, .f32⟩ : BufTy).Contents (Elt F) → (⟨S64x64, .f32⟩ : BufTy).Contents (Elt F) → (⟨S8x8192x64, .f32⟩ : BufTy).Contents (Elt F)),
    StableHlo.nullary main_c (constantI S_ 32 0#32),
    StableHlo.unary main_c main_v1 (broadcastInDim S8x8192x16 ![] bcast_S_S8x8192x16 : (⟨S_, .i32⟩ : BufTy).Contents (Elt F) → (⟨S8x8192x16, .i32⟩ : BufTy).Contents (Elt F)),
    StableHlo.binary main_arg1 main_v1 main_v2 (cmpi .slt : (⟨S8x8192x16, .i32⟩ : BufTy).Contents (Elt F) → (⟨S8x8192x16, .i32⟩ : BufTy).Contents (Elt F) → (⟨S8x8192x16, .i1⟩ : BufTy).Contents (Elt F)),
    StableHlo.nullary main_c_0 (constantI S_ 32 8192#32),
    StableHlo.unary main_c_0 main_v3 (broadcastInDim S8x8192x16 ![] bcast_S_S8x8192x16 : (⟨S_, .i32⟩ : BufTy).Contents (Elt F) → (⟨S8x8192x16, .i32⟩ : BufTy).Contents (Elt F)),
    StableHlo.binary main_arg1 main_v3 main_v4 (addi : (⟨S8x8192x16, .i32⟩ : BufTy).Contents (Elt F) → (⟨S8x8192x16, .i32⟩ : BufTy).Contents (Elt F) → (⟨S8x8192x16, .i32⟩ : BufTy).Contents (Elt F)),
    StableHlo.ternary main_v2 main_v4 main_arg1 main_v5 (select : (⟨S8x8192x16, .i1⟩ : BufTy).Contents (Elt F) → (⟨S8x8192x16, .i32⟩ : BufTy).Contents (Elt F) → (⟨S8x8192x16, .i32⟩ : BufTy).Contents (Elt F) → (⟨S8x8192x16, .i32⟩ : BufTy).Contents (Elt F)),
    StableHlo.unary main_v5 main_v6 (broadcastInDim S8x8192x16x1 ![0, 1, 2] bcast_S8x8192x16_S8x8192x16x1_0_1_2 : (⟨S8x8192x16, .i32⟩ : BufTy).Contents (Elt F) → (⟨S8x8192x16x1, .i32⟩ : BufTy).Contents (Elt F)),
    StableHlo.binary main_v0 main_v6 main_v7 ((fun x i => Host.gather gather_S8x8192x64_S8x8192x16x1_S8x8192x16x64_3_1_0_0_1_3_1164 x i) : (⟨S8x8192x64, .f32⟩ : BufTy).Contents (Elt F) → (⟨S8x8192x16x1, .i32⟩ : BufTy).Contents (Elt F) → (⟨S8x8192x16x64, .f32⟩ : BufTy).Contents (Elt F)),
    StableHlo.nullary main_cst (constant S_ .f32 0x00000000#32),
    StableHlo.binary main_v7 main_cst main_v8 ((fun x v => Host.reduceAdd x v reducesTo_S8x8192x16x64_S8x8192x64_d2 h_S_) : (⟨S8x8192x16x64, .f32⟩ : BufTy).Contents (Elt F) → (⟨S_, .f32⟩ : BufTy).Contents (Elt F) → (⟨S8x8192x64, .f32⟩ : BufTy).Contents (Elt F)),
    StableHlo.nullary main_cst_1 (constant S_ .f32 0x41800000#32),
    StableHlo.unary main_cst_1 main_v9 (broadcastInDim S8x8192x64 ![] bcast_S_S8x8192x64 : (⟨S_, .f32⟩ : BufTy).Contents (Elt F) → (⟨S8x8192x64, .f32⟩ : BufTy).Contents (Elt F)),
    StableHlo.binary main_v8 main_v9 main_v10 (Host.divf : (⟨S8x8192x64, .f32⟩ : BufTy).Contents (Elt F) → (⟨S8x8192x64, .f32⟩ : BufTy).Contents (Elt F) → (⟨S8x8192x64, .f32⟩ : BufTy).Contents (Elt F)),
    StableHlo.reshape main_v10 main_v11 rfl shapeCasts_S8x8192x64_S65536x64,
    StableHlo.nullary main_cst_2 (constant S_ .f32 0x00000000#32),
    StableHlo.binary main_v11 main_cst_2 main_v12 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    StableHlo.nullary main_cst_3 (constant S_ .f32 0x47800000#32),
    StableHlo.unary main_cst_3 main_v13 (broadcastInDim S64 ![] bcast_S_S64 : (⟨S_, .f32⟩ : BufTy).Contents (Elt F) → (⟨S64, .f32⟩ : BufTy).Contents (Elt F)),
    StableHlo.binary main_v12 main_v13 main_v14 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call0.cst (constant S_ .f32 0x00000000#32),
    StableHlo.TRef.binary (.of main_v11 : StableHlo.TRef sig ⟨S65536x64, .f32⟩) main_call0.cst main_call0.v0 (fun x v => Host.reduceAdd x v reducesTo_S65536x64_S64_d0 h_S_),
    StableHlo.TRef.unary main_call0.v0 main_call0.v1 (broadcastInDim S1x64 ![1] bcast_S64_S1x64_1),
    StableHlo.TRef.nullary main_call0.cst_0 (constant S_ .f32 0x47800000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S65536x64 ![0, 1] bcast_S1x64_S65536x64_0_1),
    StableHlo.TRef.binary (.of main_v11 : StableHlo.TRef sig ⟨S65536x64, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S65536x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v14 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S65536x64 ![0, 1] bcast_S1x64_S65536x64_0_1 : (⟨S1x64, .f32⟩ : BufTy).Contents (Elt F) → (⟨S65536x64, .f32⟩ : BufTy).Contents (Elt F)),
    StableHlo.binary main_v11 main_v17 main_v18 (subf : (⟨S65536x64, .f32⟩ : BufTy).Contents (Elt F) → (⟨S65536x64, .f32⟩ : BufTy).Contents (Elt F) → (⟨S65536x64, .f32⟩ : BufTy).Contents (Elt F)),
    StableHlo.nullary main_cst_5 (constant S_ .f32 0x3727C5AC#32),
    StableHlo.unary main_cst_5 main_v19 (broadcastInDim S64 ![] bcast_S_S64 : (⟨S_, .f32⟩ : BufTy).Contents (Elt F) → (⟨S64, .f32⟩ : BufTy).Contents (Elt F)),
    StableHlo.binary main_v15 main_v19 main_v20 (addf : (⟨S64, .f32⟩ : BufTy).Contents (Elt F) → (⟨S64, .f32⟩ : BufTy).Contents (Elt F) → (⟨S64, .f32⟩ : BufTy).Contents (Elt F)),
    StableHlo.unary main_v20 main_v21 (Host.rsqrt : (⟨S64, .f32⟩ : BufTy).Contents (Elt F) → (⟨S64, .f32⟩ : BufTy).Contents (Elt F)),
    StableHlo.unary main_v21 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S65536x64 ![0, 1] bcast_S1x64_S65536x64_0_1 : (⟨S1x64, .f32⟩ : BufTy).Contents (Elt F) → (⟨S65536x64, .f32⟩ : BufTy).Contents (Elt F)),
    StableHlo.binary main_v18 main_v23 main_v24 (mulf : (⟨S65536x64, .f32⟩ : BufTy).Contents (Elt F) → (⟨S65536x64, .f32⟩ : BufTy).Contents (Elt F) → (⟨S65536x64, .f32⟩ : BufTy).Contents (Elt F)),
    StableHlo.unary main_arg3 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S65536x64 ![0, 1] bcast_S1x64_S65536x64_0_1 : (⟨S1x64, .f32⟩ : BufTy).Contents (Elt F) → (⟨S65536x64, .f32⟩ : BufTy).Contents (Elt F)),
    StableHlo.binary main_v24 main_v26 main_v27 (mulf : (⟨S65536x64, .f32⟩ : BufTy).Contents (Elt F) → (⟨S65536x64, .f32⟩ : BufTy).Contents (Elt F) → (⟨S65536x64, .f32⟩ : BufTy).Contents (Elt F)),
    StableHlo.unary main_arg4 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S65536x64 ![0, 1] bcast_S1x64_S65536x64_0_1 : (⟨S1x64, .f32⟩ : BufTy).Contents (Elt F) → (⟨S65536x64, .f32⟩ : BufTy).Contents (Elt F)),
    StableHlo.binary main_v27 main_v29 main_v30 (addf : (⟨S65536x64, .f32⟩ : BufTy).Contents (Elt F) → (⟨S65536x64, .f32⟩ : BufTy).Contents (Elt F) → (⟨S65536x64, .f32⟩ : BufTy).Contents (Elt F)),
    StableHlo.reshape main_v30 main_v31 rfl shapeCasts_S65536x64_S8x8192x64 ]

set_option maxRecDepth 2048 in
/-- @main is that straight line: the two functions' definitions unfolded at their calls, both sides are one chain of
    steps once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub ..,
    nullary_bufs_sub .., unary_bufs_sub .., binary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    reshape_bufs_sub ..⟩

end Line

section ReadBack

variable {F : FTy → Type} [FloatOps F]

set_option maxHeartbeats 4000000 in
/-- No operation writes argument 0's buffer. -/
theorem arg0_eq (V : Valuation τ sig (Elt F)) :
    after ops V (main_arg0 : DevRef τ sig) = V (main_arg0 : DevRef τ sig) := by
  after_results_simp

set_option maxHeartbeats 4000000 in
/-- No operation writes argument 1's buffer. -/
theorem arg1_eq (V : Valuation τ sig (Elt F)) :
    after ops V (main_arg1 : DevRef τ sig) = V (main_arg1 : DevRef τ sig) := by
  after_results_simp

set_option maxHeartbeats 4000000 in
/-- No operation writes argument 2's buffer. -/
theorem arg2_eq (V : Valuation τ sig (Elt F)) :
    after ops V (main_arg2 : DevRef τ sig) = V (main_arg2 : DevRef τ sig) := by
  after_results_simp

set_option maxHeartbeats 4000000 in
/-- No operation writes argument 3's buffer. -/
theorem arg3_eq (V : Valuation τ sig (Elt F)) :
    after ops V (main_arg3 : DevRef τ sig) = V (main_arg3 : DevRef τ sig) := by
  after_results_simp

set_option maxHeartbeats 4000000 in
/-- No operation writes argument 4's buffer. -/
theorem arg4_eq (V : Valuation τ sig (Elt F)) :
    after ops V (main_arg4 : DevRef τ sig) = V (main_arg4 : DevRef τ sig) := by
  after_results_simp

end ReadBack

attribute [local irreducible] Host.reduceAdd Host.gather Host.divf Host.rsqrt in
set_option maxRecDepth 8192 in
set_option maxHeartbeats 4000000 in
/-- The fold at the result buffer is the normalisation of the neighbour mean, by computation: each operation's result
    read at the buffer it writes and passed over at every other, what is left is the operations' composed term of the
    five arguments, which the two definitions spell literally; the typed references' transports along the calls are the
    identity at these literal references. The reductions, the gather, the division and the reciprocal square root stay
    folded meanwhile: the equation never looks inside them. -/
theorem out_eq (V : Valuation τ sig (Elt Ideal)) :
    after (ops (F := Ideal)) V (main_v31 : DevRef τ sig)
      = Cert.Tail.tail (refAgg (F := Ideal) (V (main_arg0 : DevRef τ sig)) (V (main_arg1 : DevRef τ sig)) (V (main_arg2 : DevRef τ sig)))
          (V (main_arg3 : DevRef τ sig)) (V (main_arg4 : DevRef τ sig)) := by
  after_results_simp
  rfl

/-- On the one device, from any memory with zero counters: every weakly fair execution of @main terminates with the result
    at the normalisation of the neighbour mean of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
        = Cert.Tail.tail (refAgg (F := Ideal) (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v31).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.Hand

end
-- ==== Proof.RefValue.lean ====
/-
  The reference's neighbour mean read at an index: on the domain 0 ≤ knn < 8192 it is the specification's `agg` of the
  specification's projection.
-/
import proofs.«428082_j83803401880152_3_alg».proof.Proof.RefTerm
import proofs.«428082_j83803401880152_3_alg».proof.Proof.Spec
import Idealize.ShloMosaic.Lib.ValueIdx
import Idealize.ShloMosaic.PureOps.Ideal.Laws
import Idealize.ShloMosaic.Lib.StableHlo.Predicate

noncomputable section

open scoped BigOperators

namespace Cert.ReferenceIdeal.Hand

open Cert.ReferenceIdeal Cert.ReferenceIdeal.Gen Idealize.ShloMosaic Idealize.ShloMosaic.TcCoe Idealize.SL.Sem Idealize.ShloMosaic.ValueIdx

namespace RefValue

/-! ## Words: the divisor, and the neighbour index on the domain -/

/-- The divisor word denotes the real sixteen. -/
theorem sixteen : Ideal.ofBits .f32 0x41800000#32 = ((16 : ℝ) : EReal) := by
  simp [Ideal.ofBits, Ideal.ieee, -EReal.coe_mul]; norm_num

/-- A neighbour index below 8192 is not negative as a signed word, so the wrap leaves it as it is. -/
theorem wrapped_apply (knn : IVec S8x8192x16 32) (i : S8x8192x16.Idx) (h : (knn i).toNat < 8192) :
    wrapped knn i = knn i := by
  have hc : IntOp.cmpi .slt (knn i) 0#32 = 0#1 := by
    refine eq_zero_of_ne_one fun h1 => ?_
    have := (Idealize.ShloMosaic.StableHlo.Predicate.slt_iff_toNat (a := knn i) (b := 0#32) (by omega) (by decide)).mp h1
    simp at this
  show Scalar.select (IntOp.cmpi .slt (knn i) 0#32) _ (knn i) = knn i
  rw [hc, select_zero]

/-- Read signed and clamped into [0, 8191], a word below 8192 is its own value, which is also its value modulo 8192. -/
theorem clamp_eq_mod (v : BitVec 32) (h : v.toNat < 8192) : min v.toInt.toNat 8191 = v.toNat % 8192 := by
  have ht : v.toInt = v.toNat := BitVec.toInt_eq_toNat_of_lt (by omega)
  rw [ht, Int.toNat_natCast, Nat.mod_eq_of_lt h]
  omega

/-- The start indices with their trailing unit axis, read at (b, n, k, 0): the index array at (b, n, k). -/
theorem unit_axis_apply {α : Type} (y : S8x8192x16.Idx → α) (b : Fin 8) (n : Fin 8192) (k : Fin 16) :
    broadcastInDim S8x8192x16x1 ![0, 1, 2] bcast_S8x8192x16_S8x8192x16x1_0_1_2 y (ix4 b n k (0 : Fin 1)) = y (ix3 b n k) := by
  unfold broadcastInDim
  refine congrArg y (funext fun a => Fin.ext ?_)
  match a with
  | ⟨0, _⟩ => rfl
  | ⟨1, _⟩ => rfl
  | ⟨2, _⟩ => rfl

/-! ## The gather at an index: the operand's row the start index names, in the same batch, at the same column -/

abbrev G := gather_S8x8192x64_S8x8192x16x1_S8x8192x16x64_3_1_0_0_1_3_1164

section GatherAxes
variable (j : S8x8192x16x64.Idx) (idx : IVec S8x8192x16x1 32)

/-- Axis 0 is a batching axis: no start, no offset. -/
theorem start_ax0 : G.start j idx (0 : Fin S8x8192x64.rank) = 0 :=
  G.start_batching j idx 0 (List.mem_singleton.mpr rfl)
theorem off_ax0 : G.offCoord j (0 : Fin S8x8192x64.rank) = 0 :=
  G.offCoord_eq_zero j 0 fun h => ((G.mem_sKept 0).mp h).2 (List.mem_singleton.mpr rfl)
/-- Axis 1 is the collapsed axis the start index names: no batch coordinate, no offset. -/
theorem batch_ax1 : G.batchCoord j (1 : Fin S8x8192x64.rank) = 0 :=
  G.batchCoord_eq_zero j 1 (by decide)
theorem off_ax1 : G.offCoord j (1 : Fin S8x8192x64.rank) = 0 :=
  G.offCoord_eq_zero j 1 fun h => ((G.mem_sKept 1).mp h).1 (List.mem_singleton.mpr rfl)
/-- Axis 2 is the offset axis: no start, no batch coordinate. -/
theorem start_ax2 : G.start j idx (2 : Fin S8x8192x64.rank) = 0 := by
  unfold GatherDims.start; rw [dif_neg (by decide)]
theorem batch_ax2 : G.batchCoord j (2 : Fin S8x8192x64.rank) = 0 :=
  G.batchCoord_eq_zero j 2 (by decide)
end GatherAxes

section GatherCoords
variable (b : Fin 8) (n : Fin 8192) (k : Fin 16) (o : Fin 64)

/-- The batch coordinate on axis 0 is the result's batch. -/
theorem batch_ax0 : G.batchCoord (ix4 b n k o) (0 : Fin S8x8192x64.rank) = b.val := rfl
/-- The offset on axis 2 is the result's column. -/
theorem off_ax2 : G.offCoord (ix4 b n k o) (2 : Fin S8x8192x64.rank) = o.val := rfl
/-- The start on axis 1 is the start index at (b, n, k, 0), read signed and clamped into [0, 8191]. -/
theorem start_ax1 (idx : IVec S8x8192x16x1 32) :
    G.start (ix4 b n k o) idx (1 : Fin S8x8192x64.rank) = min (idx (ix4 b n k (0 : Fin 1))).toInt.toNat 8191 := by
  unfold GatherDims.start
  rw [dif_pos (show (1 : Fin S8x8192x64.rank) ∈ G.startIndexMap from List.mem_singleton.mpr rfl)]
  have hsi : G.siIdx (ix4 b n k o) ⟨List.idxOf (1 : Fin S8x8192x64.rank) G.startIndexMap,
      List.idxOf_lt_length_iff.2 (List.mem_singleton.mpr rfl)⟩ = ix4 b n k (0 : Fin 1) := by
    funext c; refine Fin.ext ?_
    match c with
    | ⟨0, _⟩ => rfl
    | ⟨1, _⟩ => rfl
    | ⟨2, _⟩ => rfl
    | ⟨3, _⟩ => rfl
  rw [hsi]
  rfl
end GatherCoords

/-- THE GATHER READ AT (b, n, k, o): the operand at (b, r, o), r the start index at (b, n, k, 0) read signed and clamped
    into [0, 8191] (the caller names the row r). -/
theorem gather_apply {α : Type} (h : S8x8192x64.Idx → α) (idx : IVec S8x8192x16x1 32)
    (b : Fin 8) (n : Fin 8192) (k : Fin 16) (o : Fin 64) (r : Fin 8192)
    (hrow : r.val = min (idx (ix4 b n k (0 : Fin 1))).toInt.toNat 8191) :
    Host.gather G h idx (ix4 b n k o) = h (ix3 b r o) := by
  unfold Host.gather
  congr 1
  funext a
  refine Fin.ext ?_
  show G.start (ix4 b n k o) idx a + G.batchCoord (ix4 b n k o) a + G.offCoord (ix4 b n k o) a = _
  match a with
  | ⟨0, _⟩ => exact (congrArg₂ (· + ·) (congrArg₂ (· + ·) (start_ax0 _ idx) (batch_ax0 b n k o)) (off_ax0 _)).trans (by simp)
  | ⟨1, _⟩ => exact (congrArg₂ (· + ·) (congrArg₂ (· + ·) (start_ax1 b n k o idx) (batch_ax1 _)) (off_ax1 _)).trans (by simp [hrow])
  | ⟨2, _⟩ => exact (congrArg₂ (· + ·) (congrArg₂ (· + ·) (start_ax2 _ idx) (batch_ax2 _)) (off_ax2 b n k o)).trans (by simp)

/-! ## The sum over the neighbour axis at an index -/

theorem red16 : S8x8192x16x64.Reduces [2] S8x8192x64 := by decide

/-- (b, n, o) with k inserted on the summed axis is (b, n, k, o). -/
theorem lift_ix (b : Fin 8) (n : Fin 8192) (o : Fin 64) (k : Fin 16) :
    red16.lift (ix3 b n o) k = ix4 b n k o := by
  funext c; refine Fin.ext ?_
  match c with
  | ⟨0, _⟩ => rfl
  | ⟨1, _⟩ => rfl
  | ⟨2, _⟩ => rfl
  | ⟨3, _⟩ => rfl

/-- The host sum over axis 2 from the zero word, at (b, n, o): the sum over the sixteen k of the array at (b, n, k, o). -/
theorem reduce_apply (X : FVec Ideal S8x8192x16x64 .f32) (b : Fin 8) (n : Fin 8192) (o : Fin 64) :
    Host.reduceAdd (F := Ideal) X (constant (F := Ideal) S_ .f32 0x00000000#32) reducesTo_S8x8192x16x64_S8x8192x64_d2 h_S_ (ix3 b n o)
      = ∑ k : Fin 16, X (ix4 b n k o) := by
  show Ideal.hostReduceAdd reducesTo_S8x8192x16x64_S8x8192x64_d2 X (Ideal.ofBits .f32 0x00000000#32) (ix3 b n o) = _
  rw [Ideal.hostReduceAdd_single reducesTo_S8x8192x16x64_S8x8192x64_d2 red16, Ideal.ofBits_zero_f32, zero_add]
  exact Finset.sum_congr rfl fun k _ => congrArg X (lift_ix b n o k)

/-! ## The projection at an index -/

abbrev D := dot_S8x8192x64_S64x64_S8x8192x64_2_1_01_0_n_n

section DotAxes
variable (b : Fin 8) (n : Fin 8192) (o : Fin 64) (q : D.contr.Idx)

/-- The left operand is read at (b, n, contraction position) … -/
theorem lhs_ax0 : (D.lhsIdx (ix3 b n o) q (0 : Fin S8x8192x64.rank)).val = b.val := rfl
theorem lhs_ax1 : (D.lhsIdx (ix3 b n o) q (1 : Fin S8x8192x64.rank)).val = n.val := rfl
theorem lhs_ax2 : (D.lhsIdx (ix3 b n o) q (2 : Fin S8x8192x64.rank)).val = (q ⟨0, by decide⟩).val :=
  DotDims.lhsIdx_val_of_single D (cl := (2 : Fin S8x8192x64.rank)) rfl (ix3 b n o) q
/-- … and the right one at (o, contraction position). -/
theorem rhs_ax0 : (D.rhsIdx (ix3 b n o) q (0 : Fin S64x64.rank)).val = o.val := rfl
theorem rhs_ax1 : (D.rhsIdx (ix3 b n o) q (1 : Fin S64x64.rank)).val = (q ⟨0, by decide⟩).val :=
  DotDims.rhsIdx_val_of_single D (cr := (1 : Fin S64x64.rank)) rfl (ix3 b n o) q
end DotAxes

/-- The dot_general at (b, n, o): Σ_c x(b, n, c) · w(o, c). -/
theorem dot_apply (x : FVec Ideal S8x8192x64 .f32) (w : FVec Ideal S64x64 .f32) (b : Fin 8) (n : Fin 8192) (o : Fin 64) :
    Host.dotGeneral (F := Ideal) D none x w (ix3 b n o) = ∑ c : Fin 64, x (ix3 b n c) * w (ix2 o c) := by
  show FloatOps.dotGeneral D none _ x w (ix3 b n o) = _
  rw [Ideal.dotGeneral_apply, ← Equiv.sum_comp (contrEquiv1 D 64 rfl rfl).symm]
  refine Finset.sum_congr rfl fun c _ => ?_
  have hc := contrEquiv1_symm_val D 64 rfl rfl c
  have hl : D.lhsIdx (ix3 b n o) ((contrEquiv1 D 64 rfl rfl).symm c) = ix3 b n c := by
    funext a; refine Fin.ext ?_
    match a with
    | ⟨0, _⟩ => exact lhs_ax0 b n o _
    | ⟨1, _⟩ => exact lhs_ax1 b n o _
    | ⟨2, _⟩ => exact (lhs_ax2 b n o _).trans hc
  have hr : D.rhsIdx (ix3 b n o) ((contrEquiv1 D 64 rfl rfl).symm c) = ix2 o c := by
    funext a; refine Fin.ext ?_
    match a with
    | ⟨0, _⟩ => exact rhs_ax0 b n o _
    | ⟨1, _⟩ => exact (rhs_ax1 b n o _).trans hc
  rw [hl, hr]

end RefValue

/-! ## The reference's neighbour mean is the specification's -/

open RefValue in
theorem refAgg_eq (x : FVec Ideal S8x8192x64 .f32) (knn : IVec S8x8192x16 32) (w : FVec Ideal S64x64 .f32)
    (hr : ∀ i, (knn i).toNat < 8192) :
    refAgg (F := Ideal) x knn w = Cert.Spec.agg knn (Cert.Spec.proj x w) := by
  funext i
  obtain ⟨b, n, o, rfl⟩ : ∃ (b : Fin 8) (n : Fin 8192) (o : Fin 64), i = ix3 b n o := ⟨_, _, _, eq_ix3 i⟩
  rw [Cert.Spec.agg_ix3]
  unfold refAgg Cert.Spec.aggAt
  show Ideal.div (Host.reduceAdd (F := Ideal) _ (constant (F := Ideal) S_ .f32 0x00000000#32) reducesTo_S8x8192x16x64_S8x8192x64_d2 h_S_ (ix3 b n o))
      (Ideal.ofBits .f32 0x41800000#32) = _
  rw [sixteen, Ideal.div_coe (by norm_num), reduce_apply]
  refine congrArg (· * (((1 / 16 : ℝ)) : EReal)) (Finset.sum_congr rfl fun k _ => ?_)
  refine (gather_apply _ _ b n k o (Cert.Spec.nbr knn b n k) ?_).trans ?_
  · rw [unit_axis_apply, wrapped_apply knn _ (hr _)]
    exact (clamp_eq_mod _ (hr _)).symm
  · rw [dot_apply, Cert.Spec.proj_ix3]
    rfl

end Cert.ReferenceIdeal.Hand

end
-- ==== Proof.PreDecode.lean ====
/-
  The precondition read: its last conjunct says every neighbour index lies in [0, 8192).
-/
import proofs.«428082_j83803401880152_3_alg».proof.Defs
import proofs.«428082_j83803401880152_3_alg».proof.Proof.Gen.Pre_finite_inputs
import Idealize.ShloMosaic.Lib.ReduceAll
import Idealize.ShloMosaic.Lib.StableHlo.Predicate
import Idealize.ShloMosaic.Lib.ValueIdx

noncomputable section

open scoped BigOperators

namespace Cert.Proof.Pre

open Idealize.ShloMosaic Idealize.ShloMosaic.TcCoe Idealize.SL.Sem

/-- The scalar shape has one index. -/
instance subsingleton_scalar_idx : Subsingleton Cert.Pre_finite_inputs.S_.Idx := ⟨fun a b => funext fun d => d.elim0⟩

/-- A 32-bit word whose signed value lies in [0, 8192) is that natural number. -/
theorem toNat_lt_of_signed_range (x : BitVec 32) (h0 : (0#32 : BitVec 32).toInt ≤ x.toInt)
    (h1 : x.toInt < (8192#32 : BitVec 32).toInt) : x.toNat < 8192 := by
  have e0 : (0#32 : BitVec 32).toInt = 0 := by decide
  have e1 : (8192#32 : BitVec 32).toInt = 8192 := by decide
  rw [e0] at h0
  rw [e1] at h1
  rw [BitVec.toInt_eq_toNat_cond] at h0 h1
  have hx := x.isLt
  split at h0 <;> omega

/-- Where the printed precondition is all ones, every neighbour index is below 8192 as a natural number (a signed word in
    [0, 8192) is that number). -/
theorem knn_lt {F : FTy → Type} [FloatOps F] (a0 : FVec F Cert.Pre_finite_inputs.S8x8192x64 .f32) (a1 : IVec Cert.Pre_finite_inputs.S8x8192x16 32)
    (a2 : FVec F Cert.Pre_finite_inputs.S64x64 .f32) (a3 a4 : FVec F Cert.Pre_finite_inputs.S64 .f32)
    (h : Cert.Pre_finite_inputs.fn (F := F) a0 a1 a2 a3 a4 = fun _ => 1#1) (i : Cert.Pre_finite_inputs.S8x8192x16.Idx) :
    (a1 i).toNat < 8192 := by
  -- the predicate at the scalar's one index: a conjunction whose last conjunct is the reduction over all neighbour indices
  have h0 := congrFun h ValueIdx.ix0
  dsimp only [Cert.Pre_finite_inputs.fn, Cert.Pre_finite_inputs.fn_part1] at h0
  have hall := (IntOp.andi_eq_one.1 h0).2
  -- every element of the reduced array is 1: the two signed comparisons at i
  have hi := Host.reduce_andi_all _ _ _ _ _ hall i
  obtain ⟨hge, hlt⟩ := IntOp.andi_eq_one.1 hi
  exact toNat_lt_of_signed_range (a1 i) (IntOp.cmpi_sge.1 hge) (IntOp.cmpi_slt.1 hlt)

end Cert.Proof.Pre

end
-- ==== Proof.lean ====
/-
  The certificate. The kernel program computes, with two pallas_calls, h = x · wᵀ (a bf16 matrix product, exact over the
  extended reals) and then, for every token, the mean of the sixteen rows of h its neighbour indices name — not by gathering
  rows but by multiplying, key chunk by key chunk, the 0/1 count matrix "neighbour = key" into the chunk of h and adding the
  eight products; the reference computes the same mean by a gather and a sum. On neighbour indices inside [0, 8192) (the
  domain the precondition states: outside it the reference's gather wraps or clamps an index where the kernel's comparison
  finds no key) the two means are one array, because every neighbour index equals exactly one key. Both programs then apply
  the same column normalisation to it, which is never opened. The frames of the two kernel programs are the generated ones;
  the reference's is its run with the result dropped.
-/
import proofs.«428082_j83803401880152_3_alg».proof.Defs
import proofs.«428082_j83803401880152_3_alg».proof.Proof.Gen.Kernel
import proofs.«428082_j83803401880152_3_alg».proof.Proof.Gen.Kernel.Skeleton
import proofs.«428082_j83803401880152_3_alg».proof.Proof.Gen.Kernel.Launch
import proofs.«428082_j83803401880152_3_alg».proof.Proof.Gen.Kernel.Points
import proofs.«428082_j83803401880152_3_alg».proof.Proof.Gen.Kernel.Frame
import proofs.«428082_j83803401880152_3_alg».proof.Proof.Gen.KernelIdeal
import proofs.«428082_j83803401880152_3_alg».proof.Proof.Gen.KernelIdeal.Skeleton
import proofs.«428082_j83803401880152_3_alg».proof.Proof.Gen.KernelIdeal.Launch
import proofs.«428082_j83803401880152_3_alg».proof.Proof.Gen.KernelIdeal.Points
import proofs.«428082_j83803401880152_3_alg».proof.Proof.Gen.KernelIdeal.Frame
import proofs.«428082_j83803401880152_3_alg».proof.Proof.Gen.ReferenceIdeal
import proofs.«428082_j83803401880152_3_alg».proof.Proof.Gen.Pre_finite_inputs
import proofs.«428082_j83803401880152_3_alg».proof.Proof.KValue
import proofs.«428082_j83803401880152_3_alg».proof.Proof.RefRun
import proofs.«428082_j83803401880152_3_alg».proof.Proof.RefValue
import proofs.«428082_j83803401880152_3_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- Both programs end with the normalisation of agg knn (proj x w): the kernel program by its two calls read as values, the
    reference by its gather read at an index, each on the neighbour indices' domain, which the precondition gives. -/
theorem algebraic : Cert.algebraic_KernelIdeal_ReferenceIdeal := by
  intro m ρ m' ρ' hpre hagree
  have hr : ∀ (c : Dev Cert.KernelIdeal.nD) (i : Cert.KernelIdeal.S8x8192x16.Idx),
      ((m ((c.tc : Thread Cert.KernelIdeal.nD Cert.KernelIdeal.τ).loc Cert.KernelIdeal.main_arg1) : Cert.KernelIdeal.S8x8192x16.Idx → BitVec 32) i).toNat < 8192 :=
    fun c i => Cert.Proof.Pre.knn_lt _ _ _ _ _ (hpre c) i
  refine ⟨_, Cert.KernelIdeal.Hand.kernel_run m ρ hr, ?_⟩
  refine (θ_run Cert.ReferenceIdeal.defs _ _).mono (fun _ h c => ⟨(h c).1.trans ?_, (h c).2⟩)
    (Cert.ReferenceIdeal.Hand.run m' ρ')
  obtain ⟨e0, e1, e2, e3, e4⟩ := hagree c
  rw [e0, e1, e2, e3, e4]
  exact congrArg (fun a => Cert.Tail.tail a _ _) (Cert.ReferenceIdeal.Hand.refAgg_eq _ _ _ (hr c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
